-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S64x64 : Shape := ⟨2, ![64, 64]⟩
abbrev S2048x2048 : Shape := ⟨2, ![2048, 2048]⟩
abbrev S64 : Shape := ⟨1, ![64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16x2048x64 .f32) (main_arg1 : FVec F S64x64 .f32) (main_arg2 : FVec F S2048x2048 .f32) (main_arg3 : FVec F S64 .f32) (main_arg4 : IVec S2048x2048 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16x2048x64 : Shape := ⟨3, ![16, 2048, 64]⟩
abbrev S64x64 : Shape := ⟨2, ![64, 64]⟩
abbrev S2048x2048 : Shape := ⟨2, ![2048, 2048]⟩
abbrev S64 : Shape := ⟨1, ![64]⟩
abbrev S1x1x64 : Shape := ⟨3, ![1, 1, 64]⟩
abbrev S16x256x64 : Shape := ⟨3, ![16, 256, 64]⟩
abbrev S256x256 : Shape := ⟨2, ![256, 256]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S16x2048x64, .f32⟩
  | .hbm, ⟨1, _⟩ => ⟨S64x64, .f32⟩
  | .hbm, ⟨2, _⟩ => ⟨S2048x2048, .f32⟩
  | .hbm, ⟨3, _⟩ => ⟨S64, .f32⟩
  | .hbm, ⟨4, _⟩ => ⟨S2048x2048, .i32⟩
  | .hbm, ⟨5, _⟩ => ⟨S1x1x64, .f32⟩
  | .hbm, ⟨6, _⟩ => ⟨S16x2048x64, .f32⟩
  | .local _ .vmem, ⟨0, _⟩ => ⟨S16x256x64, .f32⟩
  | .local _ .vmem, ⟨1, _⟩ => ⟨S16x256x64, .f32⟩
  | .local _ .vmem, ⟨2, _⟩ => ⟨S16x256x64, .f32⟩
  | .local _ .vmem, ⟨3, _⟩ => ⟨S16x256x64, .f32⟩
  | .local _ .vmem, ⟨4, _⟩ => ⟨S64x64, .f32⟩
  | .local _ .vmem, ⟨5, _⟩ => ⟨S256x256, .f32⟩
  | .local _ .vmem, ⟨6, _⟩ => ⟨S256x256, .f32⟩
  | .local _ .vmem, ⟨7, _⟩ => ⟨S256x256, .i32⟩
  | .local _ .vmem, ⟨8, _⟩ => ⟨S256x256, .i32⟩
  | .local _ .vmem, ⟨9, _⟩ => ⟨S1x1x64, .f32⟩
  | .local _ .vmem, ⟨10, _⟩ => ⟨S16x256x64, .f32⟩
  | .local _ .vmem, ⟨11, _⟩ => ⟨S16x256x64, .f32⟩
  | .local _ .vmem, ⟨12, _⟩ => ⟨S16x256x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v505 : BitVec 1 := Scalar.cmpi .eq arg1 c7_i32
  let v506 : BitVec 32 := Scalar.extui v505
  let c0_i32_262 : BitVec 32 := 0#32
  let v507 : BitVec 1 := Scalar.cmpi .ne v506 c0_i32_262
  v507

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S64_S1x1x64 : S64.ShapeCasts S1x1x64
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S256x256_S256x256_0_0 : ∀ a, (![0, 0] : Fin 2 → Nat) a + S256x256.size a ≤ S256x256.size a
  h_S256x256 : 0 < S256x256.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S16x256x64_S1x256x64_0_0_0 : ∀ a, (![0, 0, 0] : Fin 3 → Nat) a + S1x256x64.size a ≤ S16x256x64.size a
  h_S1x256x64 : 0 < S1x256x64.numel
  shapeCasts_S1x256x64_S256x64 : S1x256x64.ShapeCasts S256x64
  reduces_S256x64_S256 : S256x64.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  shapeCasts_S256x64_S1x256x64 : S256x64.ShapeCasts S1x256x64
  inb_S16x256x64_S1x256x64_1_0_0 : ∀ a, (![1, 0, 0] : Fin 3 → Nat) a + S1x256x64.size a ≤ S16x256x64.size a
  inb_S16x256x64_S1x256x64_2_0_0 : ∀ a, (![2, 0, 0] : Fin 3 → Nat) a + S1x256x64.size a ≤ S16x256x64.size a
  inb_S16x256x64_S1x256x64_3_0_0 : ∀ a, (![3, 0, 0] : Fin 3 → Nat) a + S1x256x64.size a ≤ S16x256x64.size a
  inb_S16x256x64_S1x256x64_4_0_0 : ∀ a, (![4, 0, 0] : Fin 3 → Nat) a + S1x256x64.size a ≤ S16x256x64.size a
  inb_S16x256x64_S1x256x64_5_0_0 : ∀ a, (![5, 0, 0] : Fin 3 → Nat) a + S1x256x64.size a ≤ S16x256x64.size a
  inb_S16x256x64_S1x256x64_6_0_0 : ∀ a, (![6, 0, 0] : Fin 3 → Nat) a + S1x256x64.size a ≤ S16x256x64.size a
  inb_S16x256x64_S1x256x64_7_0_0 : ∀ a, (![7, 0, 0] : Fin 3 → Nat) a + S1x256x64.size a ≤ S16x256x64.size a
  inb_S16x256x64_S1x256x64_8_0_0 : ∀ a, (![8, 0, 0] : Fin 3 → Nat) a + S1x256x64.size a ≤ S16x256x64.size a
  inb_S16x256x64_S1x256x64_9_0_0 : ∀ a, (![9, 0, 0] : Fin 3 → Nat) a + S1x256x64.size a ≤ S16x256x64.size a
  inb_S16x256x64_S1x256x64_10_0_0 : ∀ a, (![10, 0, 0] : Fin 3 → Nat) a + S1x256x64.size a ≤ S16x256x64.size a
  inb_S16x256x64_S1x256x64_11_0_0 : ∀ a, (![11, 0, 0] : Fin 3 → Nat) a + S1x256x64.size a ≤ S16x256x64.size a
  inb_S16x256x64_S1x256x64_12_0_0 : ∀ a, (![12, 0, 0] : Fin 3 → Nat) a + S1x256x64.size a ≤ S16x256x64.size a
  inb_S16x256x64_S1x256x64_13_0_0 : ∀ a, (![13, 0, 0] : Fin 3 → Nat) a + S1x256x64.size a ≤ S16x256x64.size a
  inb_S16x256x64_S1x256x64_14_0_0 : ∀ a, (![14, 0, 0] : Fin 3 → Nat) a + S1x256x64.size a ≤ S16x256x64.size a
  inb_S16x256x64_S1x256x64_15_0_0 : ∀ a, (![15, 0, 0] : Fin 3 → Nat) a + S1x256x64.size a ≤ S16x256x64.size a
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S16x256x64 : S1x1x64.Broadcasts S16x256x64
  dot_S256x64_S64x64_S256x64_1_0_0_1_n_n_wf : DotDims.WF S256x64 S64x64 S256x64 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x64.size a ≤ S16x2048x64.size a
  hwx0_0 : ∀ i : grid0.Coords, EltTy.bits .f32 = 32 ∨ (Rect.block (s := S16x2048x64) S16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x64.size a ≤ S16x2048x64.size a
  hwx0_1 : ∀ i : grid0.Coords, EltTy.bits .f32 = 32 ∨ (Rect.block (s := S16x2048x64) S16x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x2048.size a
  hwx0_3 : ∀ i : grid0.Coords, EltTy.bits .f32 = 32 ∨ (Rect.block (s := S2048x2048) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S2048x2048.size a
  hwx0_4 : ∀ i : grid0.Coords, EltTy.bits .i32 = 32 ∨ (Rect.block (s := S2048x2048) S256x256.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S1x1x64.size a
  hwx0_5 : ∀ i : grid0.Coords, EltTy.bits .f32 = 32 ∨ (Rect.block (s := S1x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256x64.size a ≤ S16x2048x64.size a
  hwx0_6 : ∀ i : grid0.Coords, EltTy.bits .f32 = 32 ∨ (Rect.block (s := S16x2048x64) S16x256x64.size (cc0_transform_6 i) (hinb0_6 i)).WholeWords (EltTy.packing .f32)

variable [Facts₀]

def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S16x256x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x2048x64 : Shape := ⟨3, ![16, 2048, 64]⟩
abbrev S64x64 : Shape := ⟨2, ![64, 64]⟩
abbrev S2048x2048 : Shape := ⟨2, ![2048, 2048]⟩
abbrev S64 : Shape := ⟨1, ![64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S1x2048x2048 : Shape := ⟨3, ![1, 2048, 2048]⟩
abbrev S1x1x64 : Shape := ⟨3, ![1, 1, 64]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S64x64, .f32⟩
  | .hbm, ⟨2, _⟩ => ⟨S2048x2048, .f32⟩
  | .hbm, ⟨3, _⟩ => ⟨S64, .f32⟩
  | .hbm, ⟨4, _⟩ => ⟨S2048x2048, .i32⟩
  | .hbm, ⟨5, _⟩ => ⟨S16x2048x64, .f32⟩
  | .hbm, ⟨6, _⟩ => ⟨S16x2048x2048, .f32⟩
  | .hbm, ⟨7, _⟩ => ⟨S16x2048x64, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x2048x1, .f32⟩
  | .hbm, ⟨12, _⟩ => ⟨S16x1x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S2048x2048, .f32⟩
  | .hbm, ⟨18, _⟩ => ⟨S2048x2048, .f32⟩
  | .hbm, ⟨19, _⟩ => ⟨S1x2048x2048, .f32⟩
  | .hbm, ⟨20, _⟩ => ⟨S16x2048x2048, .f32⟩
  | .hbm, ⟨21, _⟩ => ⟨S16x2048x2048, .f32⟩
  | .hbm, ⟨22, _⟩ => ⟨S16x2048x64, .f32⟩
  | .hbm, ⟨23, _⟩ => ⟨S1x1x64, .f32⟩
  | .hbm, ⟨24, _⟩ => ⟨S16x2048x64, .f32⟩
  | .hbm, ⟨25, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  reducesTo_S16x2048x64_S16x2048_d2 : S16x2048x64.ReducesTo [2] S16x2048
  h_S_ : 0 < S_.numel
  bcast_S16x2048_S16x2048x1_0_1 : S16x2048.BroadcastsInDim S16x2048x1 (![0, 1] : Fin 2 → Fin S16x2048x1.rank)
  transposes_S16x2048x1_S16x1x2048_0_2_1 : S16x2048x1.Transposes [0, 2, 1] S16x1x2048
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  dot_S16x2048x64_S64x64_S16x2048x64_2_0_01_1_n_n_wf : DotDims.WF S16x2048x64 S64x64 S16x2048x64 [2] [0] [0, 1] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibSharedFrame.lean ====
/-
  The frame run of a one-region pipeline program whose INPUT windows may share an array: several windows of the
  region read blocks of one array, so the arrays behind the windows are not pairwise distinct. The launch hands the
  pipeline each distinct array once, whole; the certificate says how that is dealt among the windows (`hsplit`: an
  array read through several windows is split into read shares, one per window). The body may carry something in its
  scratch buffers from point to point: the region invariant is the certificate's own, entered from the scoped rest
  at anything and returned to it after the last point. The run ends with every array of the pipeline at what the
  proof data compute for it and every other unscoped buffer as the region found it.
-/
import Idealize.ShloMosaic.Lib.Pipeline.Frame

noncomputable section

namespace Cert.SharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The tracking frame run for windows that may share arrays. `hsplit` deals the distinct arrays, each whole at its
    region-entry contents, among the windows at the shares the proof data name; `hin` and `hout` tie the invariant to
    the scoped rest (the scratch buffers at anything) before the first point and after the last. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.SharedFrame

end
-- ==== Proof.Kernel.Kit.lean ====
/-
  What the frame of this program is stated over. The program is one host operation (the bias row reshaped to
  [1, 1, 64]) followed by one pipelined region over the grid 8 × 8 (query tile, key tile). Seven windows: the query
  tile and the key tile of the SAME array x (windows 0 and 1), the weight, the attention tile, the mask tile, the bias
  row, and the output tile; one scratch accumulator [16, 256, 64] carried from point to point. Here: the contents
  the region finds, each window's block at a point, the two conditions of the body (first key tile: the accumulator
  is reset; last key tile: the output tile is stored) in closed form over the grid, and where the output window is
  idle.
-/
import proofs.«146296_j82867099009361_1_alg».proof.Proof.Gen.Kernel.Launch
import proofs.«146296_j82867099009361_1_alg».proof.Proof.Gen.Kernel.Skeleton
import proofs.«146296_j82867099009361_1_alg».proof.Proof.Gen.Kernel.Points
import proofs.«146296_j82867099009361_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- Core `c`'s TensorCore buffer contents when the region is entered: after the one host operation. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional of the body (the accumulator's reset): the key-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional (the output tile's store): the key-tile coordinate is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the output tile is not stored the output window is idle, and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- Where it is stored the window is live. -/
theorem liveAt0_6 : ∀ t : Fin cfg0.N, cond0_1 (grid0.coords t) → cfg0.idle 6 (grid0.coords t) = false := by decide +kernel

/-! ## The staging memrefs -/

/-- One staging buffer of the output window, through which its contents are stated. -/
abbrev VO0_6 : View sig .tc .vmem S16x256x64 .f32 := (Memref.whole cc0_stg6_0 : Memref sig .tc .vmem S16x256x64 .f32).view
abbrev ms0_0 (t : Fin cfg0.N) : Memref sig .tc .vmem S16x256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x256x64 .f32 := win0_6.stage (cfg0.slots t 6)
abbrev hs0_6 (t : Fin cfg0.N) : (ms0_6 t).IsWhole := hstage0_6 ((cfg0.slots t 6).cast nbuf0_6)
/-- The scratch accumulator: a whole scoped buffer of the kernel's own. -/
abbrev scM0_0 : Memref sig .tc .vmem S16x256x64 .f32 := Memref.whole cc0_scratch0
abbrev VS0_0 : View sig .tc .vmem S16x256x64 .f32 := scM0_0.view

/-- The scoped rest is the scratch accumulator owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

/-! ## The frame claim's post from the frame run's -/

/-- For any proof data whose arrays are the region-entry contents, a run to the frame post read at the argument
    arrays is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
    ((h c).1 2).trans (((dats 0 c).arrAt_in 2 rfl _).trans ((hA c 2).trans (V_main_arg1 m c))),
    ((h c).1 3).trans (((dats 0 c).arrAt_in 3 rfl _).trans ((hA c 3).trans (V_main_arg2 m c))),
    ((h c).2 main_arg3 (Pipeline.mem_restRefs_of main_arg3 (by decide) (by decide))).trans (V_main_arg3 m c),
    ((h c).1 4).trans (((dats 0 c).arrAt_in 4 rfl _).trans ((hA c 4).trans (V_main_arg4 m c)))⟩) h

end Cert.Kernel.Frame

end
-- ==== Proof.Kernel.RunA.lean ====
/-
  The kernel body run once, at the first key tile of a query tile: the accumulator is reset to zero and the sixteen batch contributions are added; nothing is stored into the output tile. The pieces the accumulator (and the output tile) end with are read off
  the run: each of the sixteen stores into the accumulator is one piece [1, 256, 64] at its batch.
-/
import proofs.«146296_j82867099009361_1_alg».proof.Proof.Kernel.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) :
    Σ' (L6 : List (View.Piece (Elt F) S16x256x64 .f32)), { LS0 : List (View.Piece (Elt F) S16x256x64 .f32) //
      ∀ (xi6 : Vec F S16x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨[], ?_, fun xi6 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Frame

end
-- ==== Proof.Kernel.RunB.lean ====
/-
  The kernel body run once, at a key tile that is neither the first nor the last: the sixteen batch contributions are added to what the accumulator held; nothing is stored into the output tile. The pieces the accumulator (and the output tile) end with are read off
  the run: each of the sixteen stores into the accumulator is one piece [1, 256, 64] at its batch.
-/
import proofs.«146296_j82867099009361_1_alg».proof.Proof.Kernel.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    Σ' (L6 : List (View.Piece (Elt F) S16x256x64 .f32)), { LS0 : List (View.Piece (Elt F) S16x256x64 .f32) //
      ∀ (xi6 : Vec F S16x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨[], ?_, fun xi6 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Frame

end
-- ==== Proof.Kernel.RunC.lean ====
/-
  The kernel body run once, at the last key tile: the sixteen batch contributions are added to the accumulator, and the accumulator plus the bias row is stored into the output tile. The pieces the accumulator (and the output tile) end with are read off
  the run: each of the sixteen stores into the accumulator is one piece [1, 256, 64] at its batch.
-/
import proofs.«146296_j82867099009361_1_alg».proof.Proof.Kernel.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    Σ' (L6 : List (View.Piece (Elt F) S16x256x64 .f32)), { LS0 : List (View.Piece (Elt F) S16x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨?_, ?_, fun E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Frame

end
-- ==== Proof.Kernel.Frame.lean ====
/-
  The frame of the program: what the accumulator and the output tile's staging buffer hold after each grid point, the
  region invariant that carries the accumulator from point to point, the body's obligation at every point, and the
  run. The query tile and the key tile are two windows over the one array x: the launch deals x among them as two
  read shares.
-/
import proofs.«146296_j82867099009361_1_alg».proof.Proof.Kernel.RunA
import proofs.«146296_j82867099009361_1_alg».proof.Proof.Kernel.RunB
import proofs.«146296_j82867099009361_1_alg».proof.Proof.Kernel.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body stores into the accumulator at the first key tile cover it: the sixteen batches' slabs tile [16, 256, 64]. -/
theorem scover0_A_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (y : S16x256x64.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S16x256x64.size (by sl_kernel_rfl) y

/-- What this case leaves in the accumulator: its pieces read back. -/
def sout0_A_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) : Vec F S16x256x64 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- The pieces the body stores into the accumulator at a middle key tile cover it: the sixteen batches' slabs tile [16, 256, 64]. -/
theorem scover0_B_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) (y : S16x256x64.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S1x256x64.size (by sl_kernel_rfl) y

/-- What this case leaves in the accumulator: its pieces read back. -/
def sout0_B_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) : Vec F S16x256x64 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- The pieces the body stores into the accumulator at the last key tile cover it: the sixteen batches' slabs tile [16, 256, 64]. -/
theorem scover0_C_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) (y : S16x256x64.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S1x256x64.size (by sl_kernel_rfl) y

/-- What this case leaves in the accumulator: its pieces read back. -/
def sout0_C_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) : Vec F S16x256x64 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-- At the last key tile the one store into the output tile covers it. -/
theorem cover0_C_6 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) (y : S16x256x64.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S16x256x64.size (by sl_kernel_rfl) y

/-- What the last key tile leaves in the output tile's staging buffer. -/
def out0_C_6 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) : Vec F S16x256x64 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-! ## What the output tile and the accumulator hold after each point -/

/-- After the body at position `n`: (the output tile's staging buffer, the accumulator). The output tile is stored only
    at the last key tile of a query tile; elsewhere its component is a placeholder nothing reads. -/
def outsAt0 (c : Dev nD) : (n : ℕ) → n < cfg0.N → Vec F S16x256x64 .f32 × Vec F S16x256x64 .f32
  | 0, hn => (VO0_6.read (Elt F) VO0_6.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (VO0_6.read (Elt F) VO0_6.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (VO0_6.read (Elt F) VO0_6.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- At a first key tile: the reset case's contents. -/
theorem outsAt0_A (c : Dev nD) (t : Fin cfg0.N) (h0 : t.val % 8 = 0) (h1 : ¬t.val % 8 = 7) :
    outsAt0 m c t.val t.isLt = (VO0_6.read (Elt F) VO0_6.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- At a middle key tile: the accumulating case's contents over what the point before left. -/
theorem outsAt0_B (c : Dev nD) (t : Fin cfg0.N) (h0 : ¬t.val % 8 = 0) (h1 : ¬t.val % 8 = 7) :
    outsAt0 m c t.val t.isLt = (VO0_6.read (Elt F) VO0_6.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last key tile: the storing case's contents over what the point before left. -/
theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch accumulator at anything; afterwards
    at what the point before left in it. -/
def PhiS (c : Dev nD) : (n : ℕ) → n ≤ cfg0.N → sProp 𝕄
  | 0, _ => Pipeline.scopedRest spec0 c
  | n + 1, hn => iprop(owns (c : Thread nD τ) scM0_0 fullShare ((outsAt0 m c n hn).2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare ((outsAt0 m c n hn).2)) := rfl

theorem PhiS_pos (c : Dev nD) (n : ℕ) (h : n ≤ cfg0.N) (hz : n ≠ 0) :
    PhiS m c n h = iprop(owns (c : Thread nD τ) scM0_0 fullShare ((outsAt0 m c (n - 1) (by omega)).2)) := by
  cases n with
  | zero => exact absurd rfl hz
  | succ n => rfl

/-! ## The pipeline's proof data -/

/-- The share of its array a window holds: the query tile and the key tile read the one array x, each at half;
    every other array has one window. -/
def qOf : Fin cfg0.W → PosShare TreeShare
  | ⟨0, _⟩ => fullShare.left
  | ⟨1, _⟩ => fullShare.right
  | _ => fullShare

/-- The proof data: the arrays as the region finds them; after the body each input's buffer at its block and the output
    tile's at `outsAt0`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: each input's staging buffer holds its block; the closed forms say which case the point is
    in; the invariant hands the body the accumulator at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6 t (fun h => h1 ((hcond0_1 t).mp h))) (noFlush0_6 t (fun h => h1 ((hcond0_1 t).mp h)))]
    rw [outsAt0_A m c t h0 h1]
    unfold sout0_A_0; (try dsimp only)
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_6 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's contents are forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro HS0
  iexists _; iexact HS0

/-- The distinct arrays behind the windows. -/
theorem arrRefs_eq : Finset.univ.image (Pipeline.arrRef spec0) = [main_arg0, main_arg1, main_arg2, main_arg4, main_v0, main_v1].toFinset := by decide

/-- The distinct arrays, each whole at the contents the region finds, one by one. -/
theorem arrBufs0_eq (c : Dev nD) :
    (Pipeline.arrBufs spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_arg4) ↦{fullShare} V m c main_arg4)
          ∗ (((c : Thread nD τ).loc main_v0) ↦{fullShare} V m c main_v0) ∗ (((c : Thread nD τ).loc main_v1) ↦{fullShare} V m c main_v1)) := by
  unfold Pipeline.arrBufs
  rw [bigSep_eq_bigSepL_of_eq _ arrRefs_eq (by decide)]
  rfl

/-- The share the core holds each window's array at. -/
theorem share0 (c : Dev nD) (w : Fin cfg0.W) : (dats m 0 c).share w = qOf w := by
  fin_cases w <;> rfl

/-- The pipeline's arrays, window by window, each a whole buffer at its window's share. -/
theorem arrays0_eq (c : Dev nD) (Fa : (w : Fin cfg0.W) → Buf (Elt F) (((cfg0.win w).arr.view.loc (c.tc : Thread nD τ)))) :
    (dats m 0 c).arrays Fa = bigSep Finset.univ fun w => (((c.tc : Thread nD τ).loc (Pipeline.arrRef spec0 w)) ↦{qOf w} Fa w : sProp 𝕄) := by
  unfold Dat.arrays
  exact bigSep_congr fun w _ => by rw [(arr_whole0 w).set_eq_univ, share0]

/-- The launch's arrays dealt among the windows: x to the query tile and the key tile at half a share each, every
    other array whole to its one window. -/
theorem hsplit (c : Dev nD) :
    (Pipeline.arrBufs spec0 c (V m c) : sProp 𝕄) ⊢ (dats m 0 c).arrays ((dats m 0 c).arrAt · 0) := by
  rw [arrBufs0_eq, arrays0_eq, bigSep_W0]
  iintro ⟨Hx, Hw, Ha, Hm, Hb, Ho⟩
  ihave Hs := (pointsTo_share (PosShare.mem_left_op_right fullShare)).1 $$ Hx
  icases Hs with ⟨Hx0, Hx1⟩
  isplitl [Hx0]; · iexact Hx0
  isplitl [Hx1]; · iexact Hx1
  isplitl [Hw]; · iexact Hw
  isplitl [Ha]; · iexact Ha
  isplitl [Hm]; · iexact Hm
  isplitl [Hb]; · iexact Hb
  iexact Ho

/-! ## The run and the frame -/

set_option backward.isDefEq.respectTransparency.types false in
/-- Every weakly fair execution of @main terminates, and every final state has every array of the pipeline at what
    the proof data compute for it and every other unscoped buffer as the region found it. -/
theorem run_main : θ_run defs (onTc (τ := τ) (main (F := F))) (s₀ m ρ) (Pipeline.FramePost cfgs (dats m) 0 (V m)) :=
  Cert.SharedFrame.θ_run_frame_track_shared cfgs (dats m) (0 : Fin 1) cellOf_inj winFacts₀0 block_pos0 arr_whole0 stage_whole0
    defs₀ Variants.none m ρ main (hbody := fun c => (body_obligation m c).loose) (howed := fun _ _ => rfl) (V := V m)
    (hmain := hmain m Variants.none) (hsplit := hsplit m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frame

end
-- ==== Proof.KernelIdeal.Kit.lean ====
/-
  What the frame of this program is stated over. The program is one host operation (the bias row reshaped to
  [1, 1, 64]) followed by one pipelined region over the grid 8 × 8 (query tile, key tile). Seven windows: the query
  tile and the key tile of the SAME array x (windows 0 and 1), the weight, the attention tile, the mask tile, the bias
  row, and the output tile; one scratch accumulator [16, 256, 64] carried from point to point. Here: the contents
  the region finds, each window's block at a point, the two conditions of the body (first key tile: the accumulator
  is reset; last key tile: the output tile is stored) in closed form over the grid, and where the output window is
  idle.
-/
import proofs.«146296_j82867099009361_1_alg».proof.Proof.Gen.KernelIdeal.Launch
import proofs.«146296_j82867099009361_1_alg».proof.Proof.Gen.KernelIdeal.Skeleton
import proofs.«146296_j82867099009361_1_alg».proof.Proof.Gen.KernelIdeal.Points
import proofs.«146296_j82867099009361_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- Core `c`'s TensorCore buffer contents when the region is entered: after the one host operation. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional of the body (the accumulator's reset): the key-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional (the output tile's store): the key-tile coordinate is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the output tile is not stored the output window is idle, and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- Where it is stored the window is live. -/
theorem liveAt0_6 : ∀ t : Fin cfg0.N, cond0_1 (grid0.coords t) → cfg0.idle 6 (grid0.coords t) = false := by decide +kernel

/-! ## The staging memrefs -/

/-- One staging buffer of the output window, through which its contents are stated. -/
abbrev VO0_6 : View sig .tc .vmem S16x256x64 .f32 := (Memref.whole cc0_stg6_0 : Memref sig .tc .vmem S16x256x64 .f32).view
abbrev ms0_0 (t : Fin cfg0.N) : Memref sig .tc .vmem S16x256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x256x64 .f32 := win0_6.stage (cfg0.slots t 6)
abbrev hs0_6 (t : Fin cfg0.N) : (ms0_6 t).IsWhole := hstage0_6 ((cfg0.slots t 6).cast nbuf0_6)
/-- The scratch accumulator: a whole scoped buffer of the kernel's own. -/
abbrev scM0_0 : Memref sig .tc .vmem S16x256x64 .f32 := Memref.whole cc0_scratch0
abbrev VS0_0 : View sig .tc .vmem S16x256x64 .f32 := scM0_0.view

/-- The scoped rest is the scratch accumulator owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

/-! ## The frame claim's post from the frame run's -/

/-- For any proof data whose arrays are the region-entry contents, a run to the frame post read at the argument
    arrays is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
    ((h c).1 2).trans (((dats 0 c).arrAt_in 2 rfl _).trans ((hA c 2).trans (V_main_arg1 m c))),
    ((h c).1 3).trans (((dats 0 c).arrAt_in 3 rfl _).trans ((hA c 3).trans (V_main_arg2 m c))),
    ((h c).2 main_arg3 (Pipeline.mem_restRefs_of main_arg3 (by decide) (by decide))).trans (V_main_arg3 m c),
    ((h c).1 4).trans (((dats 0 c).arrAt_in 4 rfl _).trans ((hA c 4).trans (V_main_arg4 m c)))⟩) h

end Cert.KernelIdeal.Frame

end
-- ==== Proof.KernelIdeal.RunA.lean ====
/-
  The kernel body run once, at the first key tile of a query tile: the accumulator is reset to zero and the sixteen batch contributions are added; nothing is stored into the output tile. The pieces the accumulator (and the output tile) end with are read off
  the run: each of the sixteen stores into the accumulator is one piece [1, 256, 64] at its batch.
-/
import proofs.«146296_j82867099009361_1_alg».proof.Proof.KernelIdeal.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) :
    Σ' (L6 : List (View.Piece (Elt F) S16x256x64 .f32)), { LS0 : List (View.Piece (Elt F) S16x256x64 .f32) //
      ∀ (xi6 : Vec F S16x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨[], ?_, fun xi6 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Frame

end
-- ==== Proof.KernelIdeal.RunB.lean ====
/-
  The kernel body run once, at a key tile that is neither the first nor the last: the sixteen batch contributions are added to what the accumulator held; nothing is stored into the output tile. The pieces the accumulator (and the output tile) end with are read off
  the run: each of the sixteen stores into the accumulator is one piece [1, 256, 64] at its batch.
-/
import proofs.«146296_j82867099009361_1_alg».proof.Proof.KernelIdeal.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    Σ' (L6 : List (View.Piece (Elt F) S16x256x64 .f32)), { LS0 : List (View.Piece (Elt F) S16x256x64 .f32) //
      ∀ (xi6 : Vec F S16x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨[], ?_, fun xi6 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Frame

end
-- ==== Proof.KernelIdeal.RunC.lean ====
/-
  The kernel body run once, at the last key tile: the sixteen batch contributions are added to the accumulator, and the accumulator plus the bias row is stored into the output tile. The pieces the accumulator (and the output tile) end with are read off
  the run: each of the sixteen stores into the accumulator is one piece [1, 256, 64] at its batch.
-/
import proofs.«146296_j82867099009361_1_alg».proof.Proof.KernelIdeal.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    Σ' (L6 : List (View.Piece (Elt F) S16x256x64 .f32)), { LS0 : List (View.Piece (Elt F) S16x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨?_, ?_, fun E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec_parts (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Frame

end
-- ==== Proof.KernelIdeal.Frame.lean ====
/-
  The frame of the program: what the accumulator and the output tile's staging buffer hold after each grid point, the
  region invariant that carries the accumulator from point to point, the body's obligation at every point, and the
  run. The query tile and the key tile are two windows over the one array x: the launch deals x among them as two
  read shares.
-/
import proofs.«146296_j82867099009361_1_alg».proof.Proof.KernelIdeal.RunA
import proofs.«146296_j82867099009361_1_alg».proof.Proof.KernelIdeal.RunB
import proofs.«146296_j82867099009361_1_alg».proof.Proof.KernelIdeal.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body stores into the accumulator at the first key tile cover it: the sixteen batches' slabs tile [16, 256, 64]. -/
theorem scover0_A_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (y : S16x256x64.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S16x256x64.size (by sl_kernel_rfl) y

/-- What this case leaves in the accumulator: its pieces read back. -/
def sout0_A_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) : Vec F S16x256x64 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- The pieces the body stores into the accumulator at a middle key tile cover it: the sixteen batches' slabs tile [16, 256, 64]. -/
theorem scover0_B_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) (y : S16x256x64.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S1x256x64.size (by sl_kernel_rfl) y

/-- What this case leaves in the accumulator: its pieces read back. -/
def sout0_B_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) : Vec F S16x256x64 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- The pieces the body stores into the accumulator at the last key tile cover it: the sixteen batches' slabs tile [16, 256, 64]. -/
theorem scover0_C_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) (y : S16x256x64.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S1x256x64.size (by sl_kernel_rfl) y

/-- What this case leaves in the accumulator: its pieces read back. -/
def sout0_C_0 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) : Vec F S16x256x64 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-- At the last key tile the one store into the output tile covers it. -/
theorem cover0_C_6 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) (y : S16x256x64.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S16x256x64.size (by sl_kernel_rfl) y

/-- What the last key tile leaves in the output tile's staging buffer. -/
def out0_C_6 (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) : Vec F S16x256x64 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-! ## What the output tile and the accumulator hold after each point -/

/-- After the body at position `n`: (the output tile's staging buffer, the accumulator). The output tile is stored only
    at the last key tile of a query tile; elsewhere its component is a placeholder nothing reads. -/
def outsAt0 (c : Dev nD) : (n : ℕ) → n < cfg0.N → Vec F S16x256x64 .f32 × Vec F S16x256x64 .f32
  | 0, hn => (VO0_6.read (Elt F) VO0_6.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (VO0_6.read (Elt F) VO0_6.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (VO0_6.read (Elt F) VO0_6.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- At a first key tile: the reset case's contents. -/
theorem outsAt0_A (c : Dev nD) (t : Fin cfg0.N) (h0 : t.val % 8 = 0) (h1 : ¬t.val % 8 = 7) :
    outsAt0 m c t.val t.isLt = (VO0_6.read (Elt F) VO0_6.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- At a middle key tile: the accumulating case's contents over what the point before left. -/
theorem outsAt0_B (c : Dev nD) (t : Fin cfg0.N) (h0 : ¬t.val % 8 = 0) (h1 : ¬t.val % 8 = 7) :
    outsAt0 m c t.val t.isLt = (VO0_6.read (Elt F) VO0_6.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last key tile: the storing case's contents over what the point before left. -/
theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch accumulator at anything; afterwards
    at what the point before left in it. -/
def PhiS (c : Dev nD) : (n : ℕ) → n ≤ cfg0.N → sProp 𝕄
  | 0, _ => Pipeline.scopedRest spec0 c
  | n + 1, hn => iprop(owns (c : Thread nD τ) scM0_0 fullShare ((outsAt0 m c n hn).2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare ((outsAt0 m c n hn).2)) := rfl

theorem PhiS_pos (c : Dev nD) (n : ℕ) (h : n ≤ cfg0.N) (hz : n ≠ 0) :
    PhiS m c n h = iprop(owns (c : Thread nD τ) scM0_0 fullShare ((outsAt0 m c (n - 1) (by omega)).2)) := by
  cases n with
  | zero => exact absurd rfl hz
  | succ n => rfl

/-! ## The pipeline's proof data -/

/-- The share of its array a window holds: the query tile and the key tile read the one array x, each at half;
    every other array has one window. -/
def qOf : Fin cfg0.W → PosShare TreeShare
  | ⟨0, _⟩ => fullShare.left
  | ⟨1, _⟩ => fullShare.right
  | _ => fullShare

/-- The proof data: the arrays as the region finds them; after the body each input's buffer at its block and the output
    tile's at `outsAt0`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: each input's staging buffer holds its block; the closed forms say which case the point is
    in; the invariant hands the body the accumulator at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · have h1 : ¬t.val % 8 = 7 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6 t (fun h => h1 ((hcond0_1 t).mp h))) (noFlush0_6 t (fun h => h1 ((hcond0_1 t).mp h)))]
    rw [outsAt0_A m c t h0 h1]
    unfold sout0_A_0; (try dsimp only)
    by_cases hz : t.val = 0
    · rw [PhiS_castSucc m c t, PhiS_zero m c _ _ hz, scopedRest0_owns]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_6 sout0_C_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scoped rest back: the accumulator's contents are forgotten. -/
theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro HS0
  iexists _; iexact HS0

/-- The distinct arrays behind the windows. -/
theorem arrRefs_eq : Finset.univ.image (Pipeline.arrRef spec0) = [main_arg0, main_arg1, main_arg2, main_arg4, main_v0, main_v1].toFinset := by decide

/-- The distinct arrays, each whole at the contents the region finds, one by one. -/
theorem arrBufs0_eq (c : Dev nD) :
    (Pipeline.arrBufs spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_arg4) ↦{fullShare} V m c main_arg4)
          ∗ (((c : Thread nD τ).loc main_v0) ↦{fullShare} V m c main_v0) ∗ (((c : Thread nD τ).loc main_v1) ↦{fullShare} V m c main_v1)) := by
  unfold Pipeline.arrBufs
  rw [bigSep_eq_bigSepL_of_eq _ arrRefs_eq (by decide)]
  rfl

/-- The share the core holds each window's array at. -/
theorem share0 (c : Dev nD) (w : Fin cfg0.W) : (dats m 0 c).share w = qOf w := by
  fin_cases w <;> rfl

/-- The pipeline's arrays, window by window, each a whole buffer at its window's share. -/
theorem arrays0_eq (c : Dev nD) (Fa : (w : Fin cfg0.W) → Buf (Elt F) (((cfg0.win w).arr.view.loc (c.tc : Thread nD τ)))) :
    (dats m 0 c).arrays Fa = bigSep Finset.univ fun w => (((c.tc : Thread nD τ).loc (Pipeline.arrRef spec0 w)) ↦{qOf w} Fa w : sProp 𝕄) := by
  unfold Dat.arrays
  exact bigSep_congr fun w _ => by rw [(arr_whole0 w).set_eq_univ, share0]

/-- The launch's arrays dealt among the windows: x to the query tile and the key tile at half a share each, every
    other array whole to its one window. -/
theorem hsplit (c : Dev nD) :
    (Pipeline.arrBufs spec0 c (V m c) : sProp 𝕄) ⊢ (dats m 0 c).arrays ((dats m 0 c).arrAt · 0) := by
  rw [arrBufs0_eq, arrays0_eq, bigSep_W0]
  iintro ⟨Hx, Hw, Ha, Hm, Hb, Ho⟩
  ihave Hs := (pointsTo_share (PosShare.mem_left_op_right fullShare)).1 $$ Hx
  icases Hs with ⟨Hx0, Hx1⟩
  isplitl [Hx0]; · iexact Hx0
  isplitl [Hx1]; · iexact Hx1
  isplitl [Hw]; · iexact Hw
  isplitl [Ha]; · iexact Ha
  isplitl [Hm]; · iexact Hm
  isplitl [Hb]; · iexact Hb
  iexact Ho

/-! ## The run and the frame -/

set_option backward.isDefEq.respectTransparency.types false in
/-- Every weakly fair execution of @main terminates, and every final state has every array of the pipeline at what
    the proof data compute for it and every other unscoped buffer as the region found it. -/
theorem run_main : θ_run defs (onTc (τ := τ) (main (F := F))) (s₀ m ρ) (Pipeline.FramePost cfgs (dats m) 0 (V m)) :=
  Cert.SharedFrame.θ_run_frame_track_shared cfgs (dats m) (0 : Fin 1) cellOf_inj winFacts₀0 block_pos0 arr_whole0 stage_whole0
    defs₀ Variants.none m ρ main (hbody := fun c => (body_obligation m c).loose) (howed := fun _ _ => rfl) (V := V m)
    (hmain := hmain m Variants.none) (hsplit := hsplit m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frame

end
-- ==== Proof.KernelIdeal.Tile.lean ====
/-
  One batch's share of the body, as functions of the values the body loads. For a batch the body takes the query
  rows q and key rows k (each [1, 256, 64]), and with the masked attention tile and the weight computes
      part[r, e] = Σ_j (att·mask)[r, j] · ( (q_r · k_j) / (|q_r| · |k_j|) ) · (k_j · W)[e],
  which it adds to the batch's slab of the accumulator. The first three definitions are the body's own operations in
  the body's own order (so that what a run of the body leaves unfolds to them); the theorems read them at an index
  over the extended reals.
-/
import proofs.«146296_j82867099009361_1_alg».proof.Proof.Gen.KernelIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Idealize.ShloMosaic Idealize.ShloMosaic.ValueIdx
open scoped BigOperators

variable {F : FTy → Type} [FloatOps F] [Cert.KernelIdeal.Facts]
open Cert.KernelIdeal.Facts₀ Cert.KernelIdeal.Facts

/-- The masked attention tile: the attention weights times the mask read as signed integers. -/
def amTile (a : Vec F S256x256 .f32) (mk : Vec F S256x256 .i32) : FVec F S256x256 .f32 :=
  mulf a (sitofp .f32 mk)

/-- The weight as the matrix unit takes it. -/
def wTile (w : Vec F S64x64 .f32) : FVec F S64x64 .bf16 :=
  truncf .bf16 w bitsLt_bf16_f32

/-- One batch's contribution [256, 64] from its query rows `q` and key rows `k`. -/
def partTile (v6 : FVec F S256x256 .f32) (v8 : FVec F S64x64 .bf16) (q k : Vec F S1x256x64 .f32) : FVec F S256x64 .f32 :=
  have v10 : FVec F S256x64 .f32 := shapeCast S256x64 q shapeCasts_S1x256x64_S256x64
  have v12 : FVec F S256x64 .f32 := shapeCast S256x64 k shapeCasts_S1x256x64_S256x64
  have v13 : FVec F S256x64 .bf16 := truncf .bf16 v10 bitsLt_bf16_f32
  have v14 : FVec F S256x64 .bf16 := truncf .bf16 v12 bitsLt_bf16_f32
  have cst : FVec F S256x64 .f32 := constant S256x64 .f32 0x00000000#32
  have v15 : FVec F S256x64 .f32 := matmul dot_S256x64_S64x64_S256x64_1_0_0_1_n_n none v14 v8 cst
  have cst_12 : FVec F S256x256 .f32 := constant S256x256 .f32 0x00000000#32
  have v16 : FVec F S256x256 .f32 := matmul dot_S256x64_S256x64_S256x256_1_1_0_0_n_n none v13 v14 cst_12
  have v17 : FVec F S256x64 .f32 := mulf v10 v10
  have v18 : FVec F S256 .f32 := multiReduction .add [1] S256 v17 0x00000000#32 reduces_S256x64_S256 (.inl rfl) rfl
  have v19 : FVec F S256x1 .f32 := shapeCast S256x1 v18 shapeCasts_S256_S256x1
  have v20 : FVec F S256x1 .f32 := sqrt v19
  have v21 : FVec F S256x64 .f32 := mulf v12 v12
  have v22 : FVec F S256 .f32 := multiReduction .add [1] S256 v21 0x00000000#32 reduces_S256x64_S256 (.inl rfl) rfl
  have v23 : FVec F S256x1 .f32 := shapeCast S256x1 v22 shapeCasts_S256_S256x1
  have v24 : FVec F S256x1 .f32 := sqrt v23
  have v25 : FVec F S1x256 .f32 := transpose S1x256 [1, 0] v24 transposes_S256x1_p1_0_S1x256
  have v26 : FVec F S256x256 .f32 := broadcastTo S256x256 v20 broadcasts_S256x1_S256x256
  have v27 : FVec F S256x256 .f32 := broadcastTo S256x256 v25 broadcasts_S1x256_S256x256
  have v28 : FVec F S256x256 .f32 := mulf v26 v27
  have v29 : FVec F S256x256 .f32 := divf v16 v28
  have v30 : FVec F S256x256 .f32 := mulf v6 v29
  have v31 : FVec F S256x256 .bf16 := truncf .bf16 v30 bitsLt_bf16_f32
  have v32 : FVec F S256x64 .bf16 := truncf .bf16 v15 bitsLt_bf16_f32
  have cst_15 : FVec F S256x64 .f32 := constant S256x64 .f32 0x00000000#32
  matmul dot_S256x256_S256x64_S256x64_1_0_0_1_n_n none v31 v32 cst_15

/-- The batch's slab of the accumulator after the contribution is added. -/
def accStep (p : FVec F S256x64 .f32) (old : Vec F S1x256x64 .f32) : FVec F S1x256x64 .f32 :=
  shapeCast S1x256x64 (addf (shapeCast S256x64 old shapeCasts_S1x256x64_S256x64) p) shapeCasts_S256x64_S1x256x64

/-! ## The three products of the matrix unit, each into a zero accumulator, read at an entry -/

section Products

/-- Key rows times the weight: the left operand's row is the output's row … -/
theorem lhs_kw_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
/-- … its column the contracted coordinate; -/
theorem lhs_kw_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
/-- the right operand's row is the contracted coordinate … -/
theorem rhs_kw_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
/-- … and its column the output's column. -/
theorem rhs_kw_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- [256, 64] times [64, 64] into zero, at (r, e): the sum over the shared coordinate. -/
theorem matmul_kw_apply {φ₁ φ₂ : FTy} (A : FVec Ideal S256x64 φ₁) (B : FVec Ideal S64x64 φ₂) (r : Fin 256) (e : Fin 64) :
    matmul dot_S256x64_S64x64_S256x64_1_0_0_1_n_n none A B (constant (F := Ideal) S256x64 .f32 0x00000000#32) (ix2 r e)
      = ∑ d : Fin 64, A (ix2 r d) * B (ix2 d e) := by
  simp only [matmul]
  rw [Ideal.matmul_constant_zero_apply, ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 r e) ((contrEquiv1 dot_S256x64_S64x64_S256x64_1_0_0_1_n_n 64 rfl rfl).symm k) = ix2 r k := funext fun a => Fin.ext (by
    match a with
    | ⟨0, _⟩ => exact lhs_kw_0 _ _
    | ⟨1, _⟩ => exact (lhs_kw_1 _ _).trans hk)
  have er : dot_S256x64_S64x64_S256x64_1_0_0_1_n_n.rhsIdx (ix2 r e) ((contrEquiv1 dot_S256x64_S64x64_S256x64_1_0_0_1_n_n 64 rfl rfl).symm k) = ix2 k e := funext fun a => Fin.ext (by
    match a with
    | ⟨0, _⟩ => exact (rhs_kw_0 _ _).trans hk
    | ⟨1, _⟩ => exact rhs_kw_1 _ _)
  rw [el, er]

end Products

section ProductsQK

/-- Query rows times key rows transposed: the left operand's row is the output's row … -/
theorem lhs_qk_0 (i : S256x256.Idx) (q : dot_S256x64_S256x64_S256x256_1_1_0_0_n_n.contr.Idx) :
    (dot_S256x64_S256x64_S256x256_1_1_0_0_n_n.lhsIdx i q 0).val = (i 0).val := by
  unfold DotDims.lhsIdx
  rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
  rfl
/-- … its column the contracted coordinate; -/
theorem lhs_qk_1 (i : S256x256.Idx) (q : dot_S256x64_S256x64_S256x256_1_1_0_0_n_n.contr.Idx) :
    (dot_S256x64_S256x64_S256x256_1_1_0_0_n_n.lhsIdx i q 1).val = (q ⟨0, by decide⟩).val :=
  dot_S256x64_S256x64_S256x256_1_1_0_0_n_n.lhsIdx_val_of_single rfl i q
/-- the right operand's row is the output's column … -/
theorem rhs_qk_0 (i : S256x256.Idx) (q : dot_S256x64_S256x64_S256x256_1_1_0_0_n_n.contr.Idx) :
    (dot_S256x64_S256x64_S256x256_1_1_0_0_n_n.rhsIdx i q 0).val = (i 1).val := by
  unfold DotDims.rhsIdx
  rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
  rfl
/-- … and its column the contracted coordinate. -/
theorem rhs_qk_1 (i : S256x256.Idx) (q : dot_S256x64_S256x64_S256x256_1_1_0_0_n_n.contr.Idx) :
    (dot_S256x64_S256x64_S256x256_1_1_0_0_n_n.rhsIdx i q 1).val = (q ⟨0, by decide⟩).val :=
  dot_S256x64_S256x64_S256x256_1_1_0_0_n_n.rhsIdx_val_of_single rfl i q

/-- [256, 64] times the transpose of [256, 64] into zero, at (r, j): the sum over the shared column. -/
theorem matmul_qk_apply {φ₁ φ₂ : FTy} (A : FVec Ideal S256x64 φ₁) (B : FVec Ideal S256x64 φ₂) (r j : Fin 256) :
    matmul dot_S256x64_S256x64_S256x256_1_1_0_0_n_n none A B (constant (F := Ideal) S256x256 .f32 0x00000000#32) (ix2 r j)
      = ∑ d : Fin 64, A (ix2 r d) * B (ix2 j d) := by
  simp only [matmul]
  rw [Ideal.matmul_constant_zero_apply, ← Equiv.sum_comp (contrEquiv1 dot_S256x64_S256x64_S256x256_1_1_0_0_n_n 64 rfl rfl).symm]
  refine Finset.sum_congr rfl fun k _ => ?_
  have hk := contrEquiv1_symm_val dot_S256x64_S256x64_S256x256_1_1_0_0_n_n 64 rfl rfl k
  have el : dot_S256x64_S256x64_S256x256_1_1_0_0_n_n.lhsIdx (ix2 r j) ((contrEquiv1 dot_S256x64_S256x64_S256x256_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S256x64_S256x64_S256x256_1_1_0_0_n_n.rhsIdx (ix2 r j) ((contrEquiv1 dot_S256x64_S256x64_S256x256_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

end ProductsQK

section ProductsAV

/-- The weighted tile times the projected key rows: the left operand's row is the output's row … -/
theorem lhs_av_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
/-- … its column the contracted coordinate; -/
theorem lhs_av_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
/-- the right operand's row is the contracted coordinate … -/
theorem rhs_av_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
/-- … and its column the output's column. -/
theorem rhs_av_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- [256, 256] times [256, 64] into zero, at (r, e): the sum over the 256 shared coordinates. -/
theorem matmul_av_apply {φ₁ φ₂ : FTy} (A : FVec Ideal S256x256 φ₁) (B : FVec Ideal S256x64 φ₂) (r : Fin 256) (e : Fin 64) :
    matmul dot_S256x256_S256x64_S256x64_1_0_0_1_n_n none A B (constant (F := Ideal) S256x64 .f32 0x00000000#32) (ix2 r e)
      = ∑ j : Fin 256, A (ix2 r j) * B (ix2 j e) := by
  simp only [matmul]
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 r e) ((contrEquiv1 dot_S256x256_S256x64_S256x64_1_0_0_1_n_n 256 rfl rfl).symm k) = ix2 r k := funext fun a => Fin.ext (by
    match a with
    | ⟨0, _⟩ => exact lhs_av_0 _ _
    | ⟨1, _⟩ => exact (lhs_av_1 _ _).trans hk)
  have er : dot_S256x256_S256x64_S256x64_1_0_0_1_n_n.rhsIdx (ix2 r e) ((contrEquiv1 dot_S256x256_S256x64_S256x64_1_0_0_1_n_n 256 rfl rfl).symm k) = ix2 k e := funext fun a => Fin.ext (by
    match a with
    | ⟨0, _⟩ => exact (rhs_av_0 _ _).trans hk
    | ⟨1, _⟩ => exact rhs_av_1 _ _)
  rw [el, er]

end ProductsAV

/-! ## The row norms and their outer product -/

section Norms

/-- A lane sum of a [256, 64] tile, kept as a column [256, 1], reads at (r, ·) the sum of row r. -/
theorem rowsum_col_apply (x : FVec Ideal S256x64 .f32) (hacc : (0x00000000#32 : BitVec 32) = 0x00000000#32) (r : Fin 256) (u : Fin 1) :
    shapeCast S256x1 (multiReduction (F := Ideal) .add [1] S256 x 0x00000000#32 reduces_S256x64_S256 (.inl rfl) hacc) shapeCasts_S256_S256x1 (ix2 r u)
      = ∑ d : Fin 64, x (ix2 r d) := by
  refine (shapeCast_apply _ shapeCasts_S256_S256x1 (ix2 r u) (ix1 r) (by
    have hu : u.val = 0 := by omega
    rw [Shape.rowMajor_val_one, Shape.rowMajor_val_two]
    show r.val = r.val * 1 + u.val
    rw [hu, Nat.mul_one, Nat.add_zero])).trans ?_
  refine (Ideal.multiReduction_add_single x 0x00000000#32 reduces_S256x64_S256 (.inl rfl) hacc (ix1 r)).trans ?_
  refine Finset.sum_congr rfl fun d _ => congrArg x (funext fun a => Fin.ext ?_)
  match a with
  | ⟨0, _⟩ => rfl
  | ⟨1, _⟩ => rfl

/-- A column [256, 1] spread over 256 columns reads at (r, j) the column's entry r. -/
theorem bcast_col_apply {α : Type} (x : S256x1.Idx → α) (r j : Fin 256) :
    broadcastTo S256x256 x broadcasts_S256x1_S256x256 (ix2 r j) = x (ix2 r (0 : Fin 1)) := by
  refine broadcastTo_apply x broadcasts_S256x1_S256x256 (ix2 r j) (ix2 r (0 : Fin 1)) fun ax => ?_
  match ax with
  | ⟨0, _⟩ => rfl
  | ⟨1, _⟩ => rfl

/-- A column [256, 1] transposed to a row and spread over 256 rows reads at (r, j) the column's entry j. -/
theorem bcast_row_apply {α : Type} (x : S256x1.Idx → α) (r j : Fin 256) :
    broadcastTo S256x256 (transpose S1x256 [1, 0] x transposes_S256x1_p1_0_S1x256) broadcasts_S1x256_S256x256 (ix2 r j)
      = x (ix2 j (0 : Fin 1)) :=
  (broadcastTo_1b_ab_apply _ broadcasts_S1x256_S256x256 r j).trans
    (transpose_ix2_apply x transposes_S256x1_p1_0_S1x256 (0 : Fin 1) j)

end Norms

/-! ## The pieces of one batch, read at an entry from the rows the body loads -/

section Pieces

/-- The query rows against the key rows: (r, j) is the inner product of query row r and key row j. -/
theorem qk_apply (q k : Vec Ideal S1x256x64 .f32) (r j : Fin 256) :
    matmul dot_S256x64_S256x64_S256x256_1_1_0_0_n_n none
        (truncf .bf16 (shapeCast S256x64 q shapeCasts_S1x256x64_S256x64 : FVec Ideal S256x64 .f32) bitsLt_bf16_f32 : FVec Ideal S256x64 .bf16)
        (truncf .bf16 (shapeCast S256x64 k shapeCasts_S1x256x64_S256x64 : FVec Ideal S256x64 .f32) bitsLt_bf16_f32 : FVec Ideal S256x64 .bf16)
        (constant (F := Ideal) S256x256 .f32 0x00000000#32) (ix2 r j)
      = ∑ d : Fin 64, q (ix3 (0 : Fin 1) r d) * k (ix3 (0 : Fin 1) j d) := by
  refine (matmul_qk_apply _ _ r j).trans ?_
  refine Finset.sum_congr rfl fun d _ => ?_
  rw [truncf_apply, truncf_apply, shapeCast_1ab_ab_apply, shapeCast_1ab_ab_apply]

/-- The key rows through the weight: (j, e) is key row j against the weight's column e. -/
theorem kw_apply (k : Vec Ideal S1x256x64 .f32) (w : Vec Ideal S64x64 .f32) (j : Fin 256) (e : Fin 64) :
    (truncf .bf16 (matmul dot_S256x64_S64x64_S256x64_1_0_0_1_n_n none
        (truncf .bf16 (shapeCast S256x64 k shapeCasts_S1x256x64_S256x64 : FVec Ideal S256x64 .f32) bitsLt_bf16_f32 : FVec Ideal S256x64 .bf16)
        (wTile w) (constant (F := Ideal) S256x64 .f32 0x00000000#32)) bitsLt_bf16_f32 : FVec Ideal S256x64 .bf16) (ix2 j e)
      = ∑ d : Fin 64, k (ix3 (0 : Fin 1) j d) * w (ix2 d e) := by
  rw [truncf_apply]
  refine (matmul_kw_apply _ _ j e).trans ?_
  refine Finset.sum_congr rfl fun d _ => ?_
  unfold wTile
  rw [truncf_apply, truncf_apply, shapeCast_1ab_ab_apply]

/-- The norm of a row, kept as a column: the square root of the row's sum of squares. -/
theorem norm_apply (x : Vec Ideal S1x256x64 .f32) (hacc : (0x00000000#32 : BitVec 32) = 0x00000000#32) (r : Fin 256) (u : Fin 1) :
    sqrt (shapeCast S256x1 (multiReduction (F := Ideal) .add [1] S256
        (mulf (shapeCast S256x64 x shapeCasts_S1x256x64_S256x64 : FVec Ideal S256x64 .f32) (shapeCast S256x64 x shapeCasts_S1x256x64_S256x64))
        0x00000000#32 reduces_S256x64_S256 (.inl rfl) hacc) shapeCasts_S256_S256x1) (ix2 r u)
      = Ideal.sqrt (∑ d : Fin 64, x (ix3 (0 : Fin 1) r d) * x (ix3 (0 : Fin 1) r d)) := by
  show Ideal.sqrt _ = _
  refine congrArg Ideal.sqrt ((rowsum_col_apply _ hacc r u).trans ?_)
  refine Finset.sum_congr rfl fun d _ => ?_
  rw [mulf_apply, shapeCast_1ab_ab_apply]

end Pieces

/-- The accumulator's slab after a step, entry by entry: the old entry plus the contribution's. -/
theorem accStep_apply (p : FVec Ideal S256x64 .f32) (old : Vec Ideal S1x256x64 .f32) (r : Fin 256) (e : Fin 64) :
    accStep (F := Ideal) p old (ix3 (0 : Fin 1) r e) = old (ix3 (0 : Fin 1) r e) + p (ix2 r e) := by
  unfold accStep
  refine (shapeCast_ab_1ab_apply _ shapeCasts_S256x64_S1x256x64 (0 : Fin 1) r e).trans ?_
  rw [addf_apply, shapeCast_1ab_ab_apply]

/-- One batch's contribution, entry by entry, over the extended reals. -/
theorem partTile_apply (a : Vec Ideal S256x256 .f32) (mk : Vec Ideal S256x256 .i32) (w : Vec Ideal S64x64 .f32)
    (q k : Vec Ideal S1x256x64 .f32) (r : Fin 256) (e : Fin 64) :
    partTile (F := Ideal) (amTile a mk) (wTile w) q k (ix2 r e)
      = ∑ j : Fin 256, ((a (ix2 r j) * (((mk (ix2 r j)).toInt : ℝ) : EReal))
          * Ideal.div (∑ d : Fin 64, q (ix3 (0 : Fin 1) r d) * k (ix3 (0 : Fin 1) j d))
              (Ideal.sqrt (∑ d : Fin 64, q (ix3 (0 : Fin 1) r d) * q (ix3 (0 : Fin 1) r d))
                * Ideal.sqrt (∑ d : Fin 64, k (ix3 (0 : Fin 1) j d) * k (ix3 (0 : Fin 1) j d))))
          * (∑ d : Fin 64, k (ix3 (0 : Fin 1) j d) * w (ix2 d e)) := by
  unfold partTile
  refine (matmul_av_apply _ _ r e).trans ?_
  refine Finset.sum_congr rfl fun j _ => ?_
  rw [kw_apply k w j e, truncf_apply, mulf_apply, divf_apply, qk_apply q k r j, mulf_apply, bcast_col_apply, bcast_row_apply,
    norm_apply q rfl r 0, norm_apply k rfl j 0]
  rfl

end Cert.KernelIdeal.Tile

end
-- ==== Proof.KernelIdeal.Pieces.lean ====
/-
  What one grid point does to the accumulator, as ONE function of the point's input blocks and of what the
  accumulator held: for every batch b its slab [b, :, :] becomes the old slab plus the batch's contribution
  (Tile.accStep over Tile.partTile of the batch's query rows and key rows). The body stores the sixteen slabs one
  by one; read back, the sixteen pieces are this function. At a first key tile the old contents are the zero fill;
  at a last key tile the output tile is stored as the accumulator plus the bias row.
-/
import proofs.«146296_j82867099009361_1_alg».proof.Proof.KernelIdeal.Frame
import proofs.«146296_j82867099009361_1_alg».proof.Proof.KernelIdeal.Tile
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Tile Idealize.ShloMosaic.ValueIdx

/-- Batch `b`'s slab [1, 256, 64] of a [16, 256, 64] array. -/
def slab (X : Vec F S16x256x64 .f32) (b : Fin 16) : Vec F S1x256x64 .f32 :=
  fun z => X (ix3 b (z 1) (z 2))

/-- The accumulator after one point: every batch's slab stepped by that batch's contribution. -/
def accAll (x0 x1 : Vec F S16x256x64 .f32) (x2 : Vec F S64x64 .f32) (x3 : Vec F S256x256 .f32) (x4 : Vec F S256x256 .i32)
    (old : Vec F S16x256x64 .f32) : Vec F S16x256x64 .f32 :=
  fun y => accStep (partTile (amTile x3 x4) (wTile x2) (slab x0 (y 0)) (slab x1 (y 0))) (slab old (y 0)) (ix3 (0 : Fin 1) (y 1) (y 2))

/-- A load through the unit-stride rectangle of one batch's rows reads that batch's slab. -/
theorem ld_slab (X : Vec F S16x256x64 .f32) (b : Fin 16) (off : Fin 3 → ℕ) (h0 : off 0 = b.val) (h1 : off 1 = 0) (h2 : off 2 = 0)
    (inb : ∀ a, off a + S1x256x64.size a ≤ S16x256x64.size a) :
    View.ld X (Rect.unit (s := S16x256x64) off S1x256x64.size inb) = slab X b := by
  funext z
  show X _ = X _
  congr 1
  funext a
  apply Fin.ext
  match a with
  | ⟨0, _⟩ =>
    have hz : (z 0).val = 0 := by have := (z 0).isLt; simp at this; omega
    show off 0 + 1 * (z 0).val = b.val
    omega
  | ⟨1, _⟩ =>
    show off 1 + 1 * (z 1).val = (z 1).val
    omega
  | ⟨2, _⟩ =>
    show off 2 + 1 * (z 2).val = (z 2).val
    omega

/-- One batch's piece: the step of the three loads through the batch's rectangle is the whole-accumulator function
    read under that rectangle. -/
theorem slabStep_eq (b : Fin 16) (off : Fin 3 → ℕ) (h0 : off 0 = b.val) (h1 : off 1 = 0) (h2 : off 2 = 0)
    (inb : ∀ a, off a + S1x256x64.size a ≤ S16x256x64.size a)
    (x0 x1 : Vec F S16x256x64 .f32) (x2 : Vec F S64x64 .f32) (x3 : Vec F S256x256 .f32) (x4 : Vec F S256x256 .i32)
    (old : Vec F S16x256x64 .f32) (x : S1x256x64.Idx) :
    accStep (partTile (amTile x3 x4) (wTile x2) (View.ld x0 (Rect.unit (s := S16x256x64) off S1x256x64.size inb))
          (View.ld x1 (Rect.unit (s := S16x256x64) off S1x256x64.size inb)))
        (View.ld old (Rect.unit (s := S16x256x64) off S1x256x64.size inb)) x
      = accAll x0 x1 x2 x3 x4 old ((Rect.unit (s := S16x256x64) off S1x256x64.size inb).emb x) := by
  rw [ld_slab x0 b off h0 h1 h2 inb, ld_slab x1 b off h0 h1 h2 inb, ld_slab old b off h0 h1 h2 inb]
  have e0 : ((Rect.unit (s := S16x256x64) off S1x256x64.size inb).emb x) 0 = b := by
    apply Fin.ext
    have hz : (x 0).val = 0 := by have := (x 0).isLt; simp at this; omega
    show off 0 + 1 * (x 0).val = b.val
    omega
  have e1 : ((Rect.unit (s := S16x256x64) off S1x256x64.size inb).emb x) 1 = x 1 := by
    apply Fin.ext
    show off 1 + 1 * (x 1).val = (x 1).val
    omega
  have e2 : ((Rect.unit (s := S16x256x64) off S1x256x64.size inb).emb x) 2 = x 2 := by
    apply Fin.ext
    show off 2 + 1 * (x 2).val = (x 2).val
    omega
  have ex : x = ix3 (0 : Fin 1) (x 1) (x 2) := by
    funext a
    match a with
    | ⟨0, _⟩ =>
      apply Fin.ext
      have hz : (x 0).val = 0 := by have := (x 0).isLt; simp at this; omega
      exact hz
    | ⟨1, _⟩ => rfl
    | ⟨2, _⟩ => rfl
  unfold accAll
  rw [e0, e1, e2]
  exact congrArg _ ex

/-- The zero offsets of a rank-2 block, as the constant function. -/
theorem zero2_eq : (![0, 0] : Fin 2 → ℕ) = fun _ => 0 := by
  funext a; match a with | ⟨0, _⟩ => rfl | ⟨1, _⟩ => rfl

/-- The zero offsets of a rank-3 block, as the constant function. -/
theorem zero3_eq : (![0, 0, 0] : Fin 3 → ℕ) = fun _ => 0 := by
  funext a; match a with | ⟨0, _⟩ => rfl | ⟨1, _⟩ => rfl | ⟨2, _⟩ => rfl

set_option maxHeartbeats 4000000 in
/-- Every piece the body stores into the accumulator at a middle key tile is the whole-accumulator function under the piece's rectangle. -/
theorem acc_pieces_B (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    ∀ p ∈ (kernelRun0_B c i arg2 harg2 arg3 harg3 arg4 harg4 arg5 harg5 arg6 harg6 arg7 harg7 arg8 harg8 arg9 harg9 hc0 hc1 x0 x1 x2 x3 x4 x5 xs0).2.1, ∀ x : p.1.shape.Idx, p.2 x = accAll x0 x1 x2 x3 x4 xs0 (p.1.emb x) := by
  unfold kernelRun0_B
  dsimp only
  sl_unfold_words
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨15, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨14, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨13, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨12, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨11, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨10, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨9, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨8, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨7, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨6, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨5, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨4, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨3, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨2, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨1, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨0, by decide⟩ _ rfl rfl rfl _ x0 x1 x2 x3 x4 xs0 x
  intro p hp
  cases hp

set_option maxHeartbeats 4000000 in
/-- Every piece the body stores into the accumulator at a last key tile is the whole-accumulator function under the piece's rectangle. -/
theorem acc_pieces_C (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    ∀ p ∈ (kernelRun0_C c i arg2 harg2 arg3 harg3 arg4 harg4 arg5 harg5 arg6 harg6 arg7 harg7 arg8 harg8 arg9 harg9 hc0 hc1 x0 x1 x2 x3 x4 x5 xs0).2.1, ∀ x : p.1.shape.Idx, p.2 x = accAll x0 x1 x2 x3 x4 xs0 (p.1.emb x) := by
  unfold kernelRun0_C
  dsimp only
  sl_unfold_words
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨15, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨14, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨13, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨12, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨11, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨10, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨9, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨8, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨7, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨6, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨5, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨4, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨3, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨2, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨1, by decide⟩ _ rfl rfl rfl _ x0 x1 x2 x3 x4 xs0 x
  rw [List.forall_mem_cons]
  refine ⟨fun x => ?_, ?_⟩
  · simp only [View.readAt_eq_ld, Memref.IsWhole.read_unread, View.ld_unit_zero (S := S256x256) zero2_eq, View.ld_unit_zero (S := S64x64) zero2_eq]
    exact slabStep_eq ⟨0, by decide⟩ _ rfl rfl rfl _ x0 x1 x2 x3 x4 xs0 x
  intro p hp
  cases hp

/-- So the sixteen pieces of a last key tile, overlaid, are the whole-accumulator function. -/
theorem canon_C (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    View.canon (kernelRun0_C c i arg2 harg2 arg3 harg3 arg4 harg4 arg5 harg5 arg6 harg6 arg7 harg7 arg8 harg8 arg9 harg9 hc0 hc1 x0 x1 x2 x3 x4 x5 xs0).2.1 = accAll x0 x1 x2 x3 x4 xs0 := by
  funext y
  exact View.canon_apply_of_pieces (accAll x0 x1 x2 x3 x4 xs0) _ (acc_pieces_C c i arg2 harg2 arg3 harg3 arg4 harg4 arg5 harg5 arg6 harg6 arg7 harg7 arg8 harg8 arg9 harg9 hc0 hc1 x0 x1 x2 x3 x4 x5 xs0) y (scover0_C_0 c i arg2 harg2 arg3 harg3 arg4 harg4 arg5 harg5 arg6 harg6 arg7 harg7 arg8 harg8 arg9 harg9 hc0 hc1 x0 x1 x2 x3 x4 x5 xs0 y)

set_option maxHeartbeats 4000000 in
/-- The output tile's one piece at a last key tile: through the whole block, the bias row added to the accumulator as the
    sixteen stores left it. -/
theorem run_C_out (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    (kernelRun0_C c i arg2 harg2 arg3 harg3 arg4 harg4 arg5 harg5 arg6 harg6 arg7 harg7 arg8 harg8 arg9 harg9 hc0 hc1 x0 x1 x2 x3 x4 x5 xs0).1
      = [⟨Rect.unit ![0, 0, 0] S16x256x64.size inb_S16x256x64_S16x256x64_0_0_0,
          k0_pay2 (arg9.view.readCov (kernelRun0_C c i arg2 harg2 arg3 harg3 arg4 harg4 arg5 harg5 arg6 harg6 arg7 harg7 arg8 harg8 arg9 harg9 hc0 hc1 x0 x1 x2 x3 x4 x5 xs0).2.1
              (Rect.unit ![0, 0, 0] S16x256x64.size inb_S16x256x64_S16x256x64_0_0_0).toLoadRect)
            (View.readAt (Elt F) arg7.view (Rect.unit ![0, 0, 0] S1x1x64.size inb_S1x1x64_S1x1x64_0_0_0).toLoadRect (harg7.unread x5))⟩] := by
  unfold kernelRun0_C
  dsimp only
  sl_unfold_words
  rfl

/-- At a middle key tile the accumulator ends at the step of what it held. -/
theorem sout0_B_0_eq (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    sout0_B_0 c i arg2 harg2 arg3 harg3 arg4 harg4 arg5 harg5 arg6 harg6 arg7 harg7 arg8 harg8 arg9 harg9 hc0 hc1 x0 x1 x2 x3 x4 x5 xs0 = accAll x0 x1 x2 x3 x4 xs0 := by
  unfold sout0_B_0
  rw [View.read_writes_junk_eq_canon]
  funext y
  exact View.canon_apply_of_pieces (accAll x0 x1 x2 x3 x4 xs0) _ (acc_pieces_B c i arg2 harg2 arg3 harg3 arg4 harg4 arg5 harg5 arg6 harg6 arg7 harg7 arg8 harg8 arg9 harg9 hc0 hc1 x0 x1 x2 x3 x4 x5 xs0) y (scover0_B_0 c i arg2 harg2 arg3 harg3 arg4 harg4 arg5 harg5 arg6 harg6 arg7 harg7 arg8 harg8 arg9 harg9 hc0 hc1 x0 x1 x2 x3 x4 x5 xs0 y)

/-- At a last key tile likewise. -/
theorem sout0_C_0_eq (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    sout0_C_0 c i arg2 harg2 arg3 harg3 arg4 harg4 arg5 harg5 arg6 harg6 arg7 harg7 arg8 harg8 arg9 harg9 hc0 hc1 x0 x1 x2 x3 x4 x5 xs0 = accAll x0 x1 x2 x3 x4 xs0 := by
  unfold sout0_C_0
  rw [View.read_writes_junk_eq_canon]
  exact canon_C c i arg2 harg2 arg3 harg3 arg4 harg4 arg5 harg5 arg6 harg6 arg7 harg7 arg8 harg8 arg9 harg9 hc0 hc1 x0 x1 x2 x3 x4 x5 xs0

/-- At a last key tile the output tile is the accumulator's final contents plus the bias row (the body's last store). -/
theorem out0_C_6_eq (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : ¬cond0_0 i) (hc1 : cond0_1 i)
    (x0 : Vec F S16x256x64 .f32) (x1 : Vec F S16x256x64 .f32) (x2 : Vec F S64x64 .f32) (x3 : Vec F S256x256 .f32) (x4 : Vec F S256x256 .i32) (x5 : Vec F S1x1x64 .f32) (xs0 : Vec F S16x256x64 .f32) :
    out0_C_6 c i arg2 harg2 arg3 harg3 arg4 harg4 arg5 harg5 arg6 harg6 arg7 harg7 arg8 harg8 arg9 harg9 hc0 hc1 x0 x1 x2 x3 x4 x5 xs0 = k0_pay2 (accAll x0 x1 x2 x3 x4 xs0) x5 := by
  unfold out0_C_6
  rw [View.read_writes_junk_eq_canon, run_C_out, View.canon_unit_zero (S := S16x256x64) zero3_eq,
    View.readCov_eq_canon_ld _ _ _ (scover0_C_0 c i arg2 harg2 arg3 harg3 arg4 harg4 arg5 harg5 arg6 harg6 arg7 harg7 arg8 harg8 arg9 harg9 hc0 hc1 x0 x1 x2 x3 x4 x5 xs0), canon_C c i arg2 harg2 arg3 harg3 arg4 harg4 arg5 harg5 arg6 harg6 arg7 harg7 arg8 harg8 arg9 harg9 hc0 hc1 x0 x1 x2 x3 x4 x5 xs0,
    View.ld_unit_zero (S := S16x256x64) zero3_eq, View.readAt_eq_ld, Memref.IsWhole.read_unread,
    View.ld_unit_zero (S := S1x1x64) zero3_eq]

end Cert.KernelIdeal.Frame

end
-- ==== Proof.KernelIdeal.PiecesA.lean ====
/-
  At the first key tile of a query tile the body fills the accumulator with zeros, and then every batch reads its
  slab back (the zeros), adds its contribution and stores the slab: read back, the accumulator is the step of the
  zero fill.
-/
import proofs.«146296_j82867099009361_1_alg».proof.Proof.KernelIdeal.Pieces

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Tile Idealize.ShloMosaic.ValueIdx

/-- The rectangle of batch `o`'s slab in the accumulator. -/
abbrev slabRectA (o : ℕ) (inb : ∀ a, (![o, 0, 0] : Fin 3 → ℕ) a + S1x256x64.size a ≤ S16x256x64.size a) : Rect S16x256x64 :=
  Rect.unit ![o, 0, 0] S1x256x64.size inb

/-- The slab rectangle of batch `o` places an index of the slab at batch `o`, same row, same column. -/
theorem slabRectA_emb (o : ℕ) (ho : o < 16) (inb : ∀ a, (![o, 0, 0] : Fin 3 → ℕ) a + S1x256x64.size a ≤ S16x256x64.size a)
    (x : (slabRectA o inb).shape.Idx) :
    (slabRectA o inb).emb x = ix3 (⟨o, ho⟩ : Fin 16) (x 1) (x 2) := by
  funext a
  apply Fin.ext
  rw [Rect.emb_apply]
  have h0 := (x 0).isLt
  fin_cases a
  · simp at h0 ⊢; omega
  · simp
  · simp

/-- A load through the slab rectangle reads the batch's slab. -/
theorem ld_slabA (o : ℕ) (ho : o < 16) (inb : ∀ a, (![o, 0, 0] : Fin 3 → ℕ) a + S1x256x64.size a ≤ S16x256x64.size a) (X : Vec F S16x256x64 .f32) :
    View.ld X (slabRectA o inb) = slab X ⟨o, ho⟩ := by
  funext z
  show X ((slabRectA o inb).emb z) = _
  rw [slabRectA_emb o ho]; rfl

/-- One batch's step over the loaded slabs is the whole step read at the slab's place. -/
theorem slabStepA_eq (o : ℕ) (ho : o < 16) (inb : ∀ a, (![o, 0, 0] : Fin 3 → ℕ) a + S1x256x64.size a ≤ S16x256x64.size a)
    (x0 x1 : Vec F S16x256x64 .f32) (x2 : Vec F S64x64 .f32) (x3 : Vec F S256x256 .f32) (x4 : Vec F S256x256 .i32) (old : Vec F S16x256x64 .f32)
    (x : (slabRectA o inb).shape.Idx) :
    accStep (partTile (amTile x3 x4) (wTile x2) (View.ld x0 (slabRectA o inb)) (View.ld x1 (slabRectA o inb))) (View.ld old (slabRectA o inb)) x
      = accAll x0 x1 x2 x3 x4 old ((slabRectA o inb).emb x) := by
  rw [ld_slabA o ho, ld_slabA o ho, ld_slabA o ho, slabRectA_emb o ho]
  show _ = accStep _ _ _
  congr 1
  funext a
  apply Fin.ext
  have h0 := (x 0).isLt
  fin_cases a
  · simp at h0 ⊢; omega
  · rfl
  · rfl

/-- An index is in batch `o`'s slab exactly when its batch is `o`. -/
theorem mem_slabRectA (o : ℕ) (inb : ∀ a, (![o, 0, 0] : Fin 3 → ℕ) a + S1x256x64.size a ≤ S16x256x64.size a)
    (y : S16x256x64.Idx) : y ∈ (slabRectA o inb).set ↔ (y 0).val = o := by
  rw [Rect.mem_set_unit]
  constructor
  · intro hh; have := hh 0; simp at this; omega
  · intro h a
    have ha := (y a).isLt
    fin_cases a
    · simp at ha ⊢; omega
    · simp at ha ⊢; omega
    · simp at ha ⊢; omega

/-- What the stores so far have left in the accumulator after the zero fill and the first `k` batches' slab stores:
    the step `G` on the batches below `k`, the zero fill from batch `k` on. -/
structure AccInv (G : Vec F S16x256x64 .f32) (k : ℕ) (L : List (View.Piece (Elt F) S16x256x64 .f32)) : Prop where
  hi : ∀ y : S16x256x64.Idx, k ≤ (y 0).val → View.canon L y = k0_pay3 (F := F) y
  lo : ∀ y : S16x256x64.Idx, (y 0).val < k → View.canon L y = G y

/-- After the zero fill alone. -/
theorem AccInv.base (G : Vec F S16x256x64 .f32) (inb : ∀ a, (![0, 0, 0] : Fin 3 → ℕ) a + S16x256x64.size a ≤ S16x256x64.size a) :
    AccInv G 0 [(⟨Rect.unit ![0, 0, 0] S16x256x64.size inb, k0_pay3 (F := F)⟩ : View.Piece (Elt F) S16x256x64 .f32)] := by
  have hz : (![0, 0, 0] : Fin 3 → ℕ) = fun _ => 0 := by funext a; fin_cases a <;> rfl
  refine ⟨fun y _ => ?_, fun y h => absurd h (Nat.not_lt_zero _)⟩
  rw [View.canon_unit_zero (S := S16x256x64) hz inb]

/-- Batch `k`'s slab store, its payload the step at the slab's place, carries the invariant to `k + 1`. -/
theorem AccInv.step {G : Vec F S16x256x64 .f32} {k : ℕ} {L : List (View.Piece (Elt F) S16x256x64 .f32)} (h : AccInv G k L)
    (inb : ∀ a, (![k, 0, 0] : Fin 3 → ℕ) a + S1x256x64.size a ≤ S16x256x64.size a)
    (w : (slabRectA k inb).shape.Idx → Elt F .f32) (hw : ∀ x, w x = G ((slabRectA k inb).emb x)) :
    AccInv G (k + 1) (⟨slabRectA k inb, w⟩ :: L) := by
  constructor
  · intro y hy
    rw [View.canon_cons_of_not_mem _ _ (by rw [mem_slabRectA]; omega)]
    exact h.hi y (by omega)
  · intro y hy
    by_cases hk : (y 0).val = k
    · obtain ⟨x, rfl⟩ := (slabRectA k inb).exists_idx_of_mem ((mem_slabRectA k inb y).mpr hk)
      rw [show (slabRectA k inb).idx x = (slabRectA k inb).emb x from rfl, View.canon_cons_emb]
      exact hw x
    · rw [View.canon_cons_of_not_mem _ _ (by rw [mem_slabRectA]; exact hk)]
      exact h.lo y (by omega)

/-- Batch `k`'s load of its slab, after the stores so far, reads the zero fill's slab. -/
theorem AccInv.readCov_slab {G : Vec F S16x256x64 .f32} {k : ℕ} {L : List (View.Piece (Elt F) S16x256x64 .f32)} (h : AccInv G k L)
    {sg : RefSig} {κ : Kind} {sp : Space} (v : View sg κ sp S16x256x64 .f32)
    (inb : ∀ a, (![k, 0, 0] : Fin 3 → ℕ) a + S1x256x64.size a ≤ S16x256x64.size a) :
    v.readCov L (slabRectA k inb).toLoadRect = View.ld (k0_pay3 (F := F)) (slabRectA k inb) := by
  rw [View.readCov_eq_canon']
  funext j
  exact h.hi _ (by show k ≤ (((slabRectA k inb).emb j) 0).val; rw [Rect.emb_apply]; simp)

/-- The zero offsets of a rank-two block, as the constant function. -/
theorem zeros2A : (![0, 0] : Fin 2 → ℕ) = fun _ => 0 := by funext a; fin_cases a <;> rfl

/-- After the zero fill. -/
theorem accInvA_0 (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 0 (kernelRun0_A.sl.HS0_1 (F := F)) := by
  unfold kernelRun0_A.sl.HS0_1
  exact AccInv.base _ _

/-- After batch 0's slab store. -/
theorem accInvA_1 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 1 (kernelRun0_A.sl.HS0_2 c arg2 harg2 arg3 harg3 arg4 harg4 arg5 harg5 arg6 harg6 arg9 x0 x1 x2 x3 x4) := by
  unfold kernelRun0_A.sl.HS0_2
  refine AccInv.step (accInvA_0 x0 x1 x2 x3 x4) _ _ (fun x => ?_)
  unfold kernelRun0_A.sl.v34
  rw [(accInvA_0 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 0 (by decide) _ x0 x1 x2 x3 x4 (k0_pay3 (F := F)) x

/-- After batch 1's slab store. -/
theorem accInvA_2 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 2 (kernelRun0_A.sl.HS0_3 c arg2 harg2 arg3 harg3 arg4 harg4 arg5 harg5 arg6 harg6 arg9 x0 x1 x2 x3 x4) := by
  unfold kernelRun0_A.sl.HS0_3
  refine AccInv.step (accInvA_1 c arg2 harg2 arg3 harg3 arg4 harg4 arg5 harg5 arg6 harg6 arg9 x0 x1 x2 x3 x4) _ _ (fun x => ?_)
  unfold kernelRun0_A.sl.v65
  rw [(accInvA_1 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 1 (by decide) _ x0 x1 x2 x3 x4 (k0_pay3 (F := F)) x

/-- After batch 2's slab store. -/
theorem accInvA_3 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 3 (kernelRun0_A.sl.HS0_4 c arg2 harg2 arg3 harg3 arg4 harg4 arg5 harg5 arg6 harg6 arg9 x0 x1 x2 x3 x4) := by
  unfold kernelRun0_A.sl.HS0_4
  refine AccInv.step (accInvA_2 c arg2 harg2 arg3 harg3 arg4 harg4 arg5 harg5 arg6 harg6 arg9 x0 x1 x2 x3 x4) _ _ (fun x => ?_)
  unfold kernelRun0_A.sl.v96
  rw [(accInvA_2 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 2 (by decide) _ x0 x1 x2 x3 x4 (k0_pay3 (F := F)) x

/-- After batch 3's slab store. -/
theorem accInvA_4 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 4 (kernelRun0_A.sl.HS0_5 c arg2 harg2 arg3 harg3 arg4 harg4 arg5 harg5 arg6 harg6 arg9 x0 x1 x2 x3 x4) := by
  unfold kernelRun0_A.sl.HS0_5
  refine AccInv.step (accInvA_3 c arg2 harg2 arg3 harg3 arg4 harg4 arg5 harg5 arg6 harg6 arg9 x0 x1 x2 x3 x4) _ _ (fun x => ?_)
  unfold kernelRun0_A.sl.v127
  rw [(accInvA_3 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 3 (by decide) _ x0 x1 x2 x3 x4 (k0_pay3 (F := F)) x

/-- After batch 4's slab store. -/
theorem accInvA_5 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 5 (kernelRun0_A.sl.HS0_6 c arg2 harg2 arg3 harg3 arg4 harg4 arg5 harg5 arg6 harg6 arg9 x0 x1 x2 x3 x4) := by
  unfold kernelRun0_A.sl.HS0_6
  refine AccInv.step (accInvA_4 c arg2 harg2 arg3 harg3 arg4 harg4 arg5 harg5 arg6 harg6 arg9 x0 x1 x2 x3 x4) _ _ (fun x => ?_)
  unfold kernelRun0_A.sl.v158
  rw [(accInvA_4 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 4 (by decide) _ x0 x1 x2 x3 x4 (k0_pay3 (F := F)) x

/-- After batch 5's slab store. -/
theorem accInvA_6 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 6 (kernelRun0_A.sl.HS0_7 c arg2 harg2 arg3 harg3 arg4 harg4 arg5 harg5 arg6 harg6 arg9 x0 x1 x2 x3 x4) := by
  unfold kernelRun0_A.sl.HS0_7
  refine AccInv.step (accInvA_5 c arg2 harg2 arg3 harg3 arg4 harg4 arg5 harg5 arg6 harg6 arg9 x0 x1 x2 x3 x4) _ _ (fun x => ?_)
  unfold kernelRun0_A.sl.v189
  rw [(accInvA_5 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 5 (by decide) _ x0 x1 x2 x3 x4 (k0_pay3 (F := F)) x

/-- After batch 6's slab store. -/
theorem accInvA_7 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 7 (kernelRun0_A.sl.HS0_8 c arg2 harg2 arg3 harg3 arg4 harg4 arg5 harg5 arg6 harg6 arg9 x0 x1 x2 x3 x4) := by
  unfold kernelRun0_A.sl.HS0_8
  refine AccInv.step (accInvA_6 c arg2 harg2 arg3 harg3 arg4 harg4 arg5 harg5 arg6 harg6 arg9 x0 x1 x2 x3 x4) _ _ (fun x => ?_)
  unfold kernelRun0_A.sl.r_13
  unfold kernelRun0_A.sl.v220
  rw [(accInvA_6 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 6 (by decide) _ x0 x1 x2 x3 x4 (k0_pay3 (F := F)) x

/-- After batch 7's slab store. -/
theorem accInvA_8 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 8 (kernelRun0_A.sl.HS0_9 c arg2 harg2 arg3 harg3 arg4 harg4 arg5 harg5 arg6 harg6 arg9 x0 x1 x2 x3 x4) := by
  unfold kernelRun0_A.sl.HS0_9
  refine AccInv.step (accInvA_7 c arg2 harg2 arg3 harg3 arg4 harg4 arg5 harg5 arg6 harg6 arg9 x0 x1 x2 x3 x4) _ _ (fun x => ?_)
  unfold kernelRun0_A.sl.v251
  rw [(accInvA_7 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 7 (by decide) _ x0 x1 x2 x3 x4 (k0_pay3 (F := F)) x

/-- After batch 8's slab store. -/
theorem accInvA_9 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 9 (kernelRun0_A.sl.HS0_10 c arg2 harg2 arg3 harg3 arg4 harg4 arg5 harg5 arg6 harg6 arg9 x0 x1 x2 x3 x4) := by
  unfold kernelRun0_A.sl.HS0_10
  refine AccInv.step (accInvA_8 c arg2 harg2 arg3 harg3 arg4 harg4 arg5 harg5 arg6 harg6 arg9 x0 x1 x2 x3 x4) _ _ (fun x => ?_)
  unfold kernelRun0_A.sl.v282
  rw [(accInvA_8 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 8 (by decide) _ x0 x1 x2 x3 x4 (k0_pay3 (F := F)) x

/-- After batch 9's slab store. -/
theorem accInvA_10 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 10 (kernelRun0_A.sl.HS0_11 c arg2 harg2 arg3 harg3 arg4 harg4 arg5 harg5 arg6 harg6 arg9 x0 x1 x2 x3 x4) := by
  unfold kernelRun0_A.sl.HS0_11
  refine AccInv.step (accInvA_9 c arg2 harg2 arg3 harg3 arg4 harg4 arg5 harg5 arg6 harg6 arg9 x0 x1 x2 x3 x4) _ _ (fun x => ?_)
  unfold kernelRun0_A.sl.v313
  rw [(accInvA_9 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 9 (by decide) _ x0 x1 x2 x3 x4 (k0_pay3 (F := F)) x

/-- After batch 10's slab store. -/
theorem accInvA_11 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 11 (kernelRun0_A.sl.HS0_12 c arg2 harg2 arg3 harg3 arg4 harg4 arg5 harg5 arg6 harg6 arg9 x0 x1 x2 x3 x4) := by
  unfold kernelRun0_A.sl.HS0_12
  refine AccInv.step (accInvA_10 c arg2 harg2 arg3 harg3 arg4 harg4 arg5 harg5 arg6 harg6 arg9 x0 x1 x2 x3 x4) _ _ (fun x => ?_)
  unfold kernelRun0_A.sl.v344
  rw [(accInvA_10 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 10 (by decide) _ x0 x1 x2 x3 x4 (k0_pay3 (F := F)) x

/-- After batch 11's slab store. -/
theorem accInvA_12 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 12 (kernelRun0_A.sl.HS0_13 c arg2 harg2 arg3 harg3 arg4 harg4 arg5 harg5 arg6 harg6 arg9 x0 x1 x2 x3 x4) := by
  unfold kernelRun0_A.sl.HS0_13
  refine AccInv.step (accInvA_11 c arg2 harg2 arg3 harg3 arg4 harg4 arg5 harg5 arg6 harg6 arg9 x0 x1 x2 x3 x4) _ _ (fun x => ?_)
  unfold kernelRun0_A.sl.r_23
  unfold kernelRun0_A.sl.v375
  rw [(accInvA_11 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 11 (by decide) _ x0 x1 x2 x3 x4 (k0_pay3 (F := F)) x

/-- After batch 12's slab store. -/
theorem accInvA_13 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 13 (kernelRun0_A.sl.HS0_14 c arg2 harg2 arg3 harg3 arg4 harg4 arg5 harg5 arg6 harg6 arg9 x0 x1 x2 x3 x4) := by
  unfold kernelRun0_A.sl.HS0_14
  refine AccInv.step (accInvA_12 c arg2 harg2 arg3 harg3 arg4 harg4 arg5 harg5 arg6 harg6 arg9 x0 x1 x2 x3 x4) _ _ (fun x => ?_)
  unfold kernelRun0_A.sl.v406
  rw [(accInvA_12 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 12 (by decide) _ x0 x1 x2 x3 x4 (k0_pay3 (F := F)) x

/-- After batch 13's slab store. -/
theorem accInvA_14 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 14 (kernelRun0_A.sl.HS0_15 c arg2 harg2 arg3 harg3 arg4 harg4 arg5 harg5 arg6 harg6 arg9 x0 x1 x2 x3 x4) := by
  unfold kernelRun0_A.sl.HS0_15
  refine AccInv.step (accInvA_13 c arg2 harg2 arg3 harg3 arg4 harg4 arg5 harg5 arg6 harg6 arg9 x0 x1 x2 x3 x4) _ _ (fun x => ?_)
  unfold kernelRun0_A.sl.v437
  rw [(accInvA_13 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 13 (by decide) _ x0 x1 x2 x3 x4 (k0_pay3 (F := F)) x

/-- After batch 14's slab store. -/
theorem accInvA_15 (c : Dev nD) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg9 : Memref sig .tc .vmem S16x256x64 .f32)
    (x0 : Vec F S16x256x64 .f32) (x1 : Vec F S16x256x64 .f32) (x2 : Vec F S64x64 .f32) (x3 : Vec F S256x256 .f32) (x4 : Vec F S256x256 .i32) :
    AccInv (accAll x0 x1 x2 x3 x4 (k0_pay3 (F := F))) 15 (kernelRun0_A.sl.HS0_16 c arg2 harg2 arg3 harg3 arg4 harg4 arg5 harg5 arg6 harg6 arg9 x0 x1 x2 x3 x4) := by
  unfold kernelRun0_A.sl.HS0_16
  refine AccInv.step (accInvA_14 c arg2 harg2 arg3 harg3 arg4 harg4 arg5 harg5 arg6 harg6 arg9 x0 x1 x2 x3 x4) _ _ (fun x => ?_)
  unfold kernelRun0_A.sl.v468
  rw [(accInvA_14 c arg2 harg2 arg3 harg3 arg4 harg4 arg5 harg5 arg6 harg6 arg9 x0 x1 x2 x3 x4).readCov_slab]
  sl_unfold_run_names
  simp only [View.readAt_eq_ld, Memref.IsWhole.read_unread, View.ld_unit_zero (S := S256x256) zeros2A, View.ld_unit_zero (S := S64x64) zeros2A]
  exact slabStepA_eq 14 (by decide) _ x0 x1 x2 x3 x4 (k0_pay3 (F := F)) x

/-- At a first key tile the accumulator ends at the step of the zero fill. -/
theorem sout0_A_0_eq (c : Dev nD) (i : grid0.Coords) (arg2 : Memref sig .tc .vmem S16x256x64 .f32) (harg2 : arg2.IsWhole) (arg3 : Memref sig .tc .vmem S16x256x64 .f32) (harg3 : arg3.IsWhole) (arg4 : Memref sig .tc .vmem S64x64 .f32) (harg4 : arg4.IsWhole) (arg5 : Memref sig .tc .vmem S256x256 .f32) (harg5 : arg5.IsWhole) (arg6 : Memref sig .tc .vmem S256x256 .i32) (harg6 : arg6.IsWhole) (arg7 : Memref sig .tc .vmem S1x1x64 .f32) (harg7 : arg7.IsWhole) (arg8 : Memref sig .tc .vmem S16x256x64 .f32) (harg8 : arg8.IsWhole) (arg9 : Memref sig .tc .vmem S16x256x64 .f32) (harg9 : arg9.IsWhole) (hc0 : cond0_0 i) (hc1 : ¬cond0_1 i)
    (x0 : Vec F S16x256x64 .f32) (x1 : Vec F S16x256x64 .f32) (x2 : Vec F S64x64 .f32) (x3 : Vec F S256x256 .f32) (x4 : Vec F S256x256 .i32) (x5 : Vec F S1x1x64 .f32) :
    sout0_A_0 c i arg2 harg2 arg3 harg3 arg4 harg4 arg5 harg5 arg6 harg6 arg7 harg7 arg8 harg8 arg9 harg9 hc0 hc1 x0 x1 x2 x3 x4 x5 = accAll x0 x1 x2 x3 x4 (k0_pay3 (F := F)) := by
  have h : AccInv (accAll x0 x1 x2 x3 x4 (k0_pay3 (F := F))) 16 (kernelRun0_A c i arg2 harg2 arg3 harg3 arg4 harg4 arg5 harg5 arg6 harg6 arg7 harg7 arg8 harg8 arg9 harg9 hc0 hc1 x0 x1 x2 x3 x4 x5).2.1 := by
    unfold kernelRun0_A
    dsimp only
    refine AccInv.step (accInvA_15 c arg2 harg2 arg3 harg3 arg4 harg4 arg5 harg5 arg6 harg6 arg9 x0 x1 x2 x3 x4) _ _ (fun x => ?_)
    unfold kernelRun0_A.sl.v499
    rw [(accInvA_15 c arg2 harg2 arg3 harg3 arg4 harg4 arg5 harg5 arg6 harg6 arg9 x0 x1 x2 x3 x4).readCov_slab]
    sl_unfold_run_names
    simp only [View.readAt_eq_ld, Memref.IsWhole.read_unread, View.ld_unit_zero (S := S256x256) zeros2A, View.ld_unit_zero (S := S64x64) zeros2A]
    exact slabStepA_eq 15 (by decide) _ x0 x1 x2 x3 x4 (k0_pay3 (F := F)) x
  unfold sout0_A_0
  rw [View.read_writes_junk_eq_canon]
  funext y
  exact h.lo y (y 0).isLt

end Cert.KernelIdeal.Frame

end
-- ==== Proof.KernelIdeal.Blocks.lean ====
/-
  Where a grid point's blocks sit in their arrays. Point t of the 8 × 8 grid is query tile t / 8 and key tile
  t % 8. The query block of x is rows 256·(t / 8) … of every batch, the key block rows 256·(t % 8) …; the attention
  and mask blocks are the [256, 256] tile at (t / 8, t % 8); the weight and the bias row are whole; the output block
  is rows 256·(t / 8) … of every batch, written back at the last key tile of each query tile, and those blocks cover
  the output array.
-/
import proofs.«146296_j82867099009361_1_alg».proof.Proof.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem qrow_lt (t : Fin cfg0.N) (r : Fin 256) : 256 * (t.val / 8) + r.val < 2048 := by
  have h : t.val < 64 := lt_of_lt_of_eq t.isLt N_0
  have := r.isLt; omega

theorem krow_lt (t : Fin cfg0.N) (r : Fin 256) : 256 * (t.val % 8) + r.val < 2048 := by
  have := r.isLt; omega

/-! ## The windows' index maps over the grid -/

/-- The query window's block index at point t: (0, t / 8, 0). -/
theorem widx0 : ∀ t : Fin cfg0.N, win0_0.index t (0 : Fin 3) = 0 ∧ win0_0.index t (1 : Fin 3) = t.val / 8 ∧ win0_0.index t (2 : Fin 3) = 0 :=
  (by decide +kernel : ∀ t : Fin grid0.N, _)
/-- The key window's block index at point t: (0, t % 8, 0). -/
theorem widx1 : ∀ t : Fin cfg0.N, win0_1.index t (0 : Fin 3) = 0 ∧ win0_1.index t (1 : Fin 3) = t.val % 8 ∧ win0_1.index t (2 : Fin 3) = 0 :=
  (by decide +kernel : ∀ t : Fin grid0.N, _)
/-- The weight window's block index: (0, 0). -/
theorem widx2 : ∀ t : Fin cfg0.N, win0_2.index t (0 : Fin 2) = 0 ∧ win0_2.index t (1 : Fin 2) = 0 :=
  (by decide +kernel : ∀ t : Fin grid0.N, _)
/-- The attention window's block index at point t: (t / 8, t % 8). -/
theorem widx3 : ∀ t : Fin cfg0.N, win0_3.index t (0 : Fin 2) = t.val / 8 ∧ win0_3.index t (1 : Fin 2) = t.val % 8 :=
  (by decide +kernel : ∀ t : Fin grid0.N, _)
/-- The mask window's block index at point t: (t / 8, t % 8). -/
theorem widx4 : ∀ t : Fin cfg0.N, win0_4.index t (0 : Fin 2) = t.val / 8 ∧ win0_4.index t (1 : Fin 2) = t.val % 8 :=
  (by decide +kernel : ∀ t : Fin grid0.N, _)
/-- The bias window's block index: (0, 0, 0). -/
theorem widx5 : ∀ t : Fin cfg0.N, win0_5.index t (0 : Fin 3) = 0 ∧ win0_5.index t (1 : Fin 3) = 0 ∧ win0_5.index t (2 : Fin 3) = 0 :=
  (by decide +kernel : ∀ t : Fin grid0.N, _)
/-- The output window's block index at point t: (0, t / 8, 0). -/
theorem widx6 : ∀ t : Fin cfg0.N, win0_6.index t (0 : Fin 3) = 0 ∧ win0_6.index t (1 : Fin 3) = t.val / 8 ∧ win0_6.index t (2 : Fin 3) = 0 :=
  (by decide +kernel : ∀ t : Fin grid0.N, _)

/-! ## Where a block's entries sit: block index × block size + the coordinate inside the block, axis by axis -/

/-- Where the query block's entries sit in x. -/
theorem wemb0 (t : Fin cfg0.N) (y : S16x256x64.Idx) :
    ((cfg0.win 0).blk t).view.emb y = (ix3 (y 0) ⟨256 * (t.val / 8) + (y 1).val, qrow_lt t (y 1)⟩ (y 2) : S16x2048x64.Idx) := by
  obtain ⟨e0, e1, e2⟩ := widx0 t
  funext a; apply Fin.ext
  match a with
  | ⟨0, _⟩ => show win0_0.index t (0 : Fin 3) * 16 + 1 * (y 0).val = (y 0).val; omega
  | ⟨1, _⟩ => show win0_0.index t (1 : Fin 3) * 256 + 1 * (y 1).val = 256 * (t.val / 8) + (y 1).val; omega
  | ⟨2, _⟩ => show win0_0.index t (2 : Fin 3) * 64 + 1 * (y 2).val = (y 2).val; omega

/-- Where the key block's entries sit in x. -/
theorem wemb1 (t : Fin cfg0.N) (y : S16x256x64.Idx) :
    ((cfg0.win 1).blk t).view.emb y = (ix3 (y 0) ⟨256 * (t.val % 8) + (y 1).val, krow_lt t (y 1)⟩ (y 2) : S16x2048x64.Idx) := by
  obtain ⟨e0, e1, e2⟩ := widx1 t
  funext a; apply Fin.ext
  match a with
  | ⟨0, _⟩ => show win0_1.index t (0 : Fin 3) * 16 + 1 * (y 0).val = (y 0).val; omega
  | ⟨1, _⟩ => show win0_1.index t (1 : Fin 3) * 256 + 1 * (y 1).val = 256 * (t.val % 8) + (y 1).val; omega
  | ⟨2, _⟩ => show win0_1.index t (2 : Fin 3) * 64 + 1 * (y 2).val = (y 2).val; omega

/-- The weight block is the whole weight. -/
theorem wemb2 (t : Fin cfg0.N) (y : S64x64.Idx) :
    ((cfg0.win 2).blk t).view.emb y = (y : S64x64.Idx) := by
  obtain ⟨e0, e1⟩ := widx2 t
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Where the attention tile's entries sit in the attention matrix. -/
theorem wemb3 (t : Fin cfg0.N) (y : S256x256.Idx) :
    ((cfg0.win 3).blk t).view.emb y = (ix2 ⟨256 * (t.val / 8) + (y 0).val, qrow_lt t (y 0)⟩ ⟨256 * (t.val % 8) + (y 1).val, krow_lt t (y 1)⟩ : S2048x2048.Idx) := by
  obtain ⟨e0, e1⟩ := widx3 t
  funext a; apply Fin.ext
  match a with
  | ⟨0, _⟩ => show win0_3.index t (0 : Fin 2) * 256 + 1 * (y 0).val = 256 * (t.val / 8) + (y 0).val; omega
  | ⟨1, _⟩ => show win0_3.index t (1 : Fin 2) * 256 + 1 * (y 1).val = 256 * (t.val % 8) + (y 1).val; omega

/-- Where the mask tile's entries sit in the mask. -/
theorem wemb4 (t : Fin cfg0.N) (y : S256x256.Idx) :
    ((cfg0.win 4).blk t).view.emb y = (ix2 ⟨256 * (t.val / 8) + (y 0).val, qrow_lt t (y 0)⟩ ⟨256 * (t.val % 8) + (y 1).val, krow_lt t (y 1)⟩ : S2048x2048.Idx) := by
  obtain ⟨e0, e1⟩ := widx4 t
  funext a; apply Fin.ext
  match a with
  | ⟨0, _⟩ => show win0_4.index t (0 : Fin 2) * 256 + 1 * (y 0).val = 256 * (t.val / 8) + (y 0).val; omega
  | ⟨1, _⟩ => show win0_4.index t (1 : Fin 2) * 256 + 1 * (y 1).val = 256 * (t.val % 8) + (y 1).val; omega

/-- The bias block is the whole reshaped bias row. -/
theorem wemb5 (t : Fin cfg0.N) (y : S1x1x64.Idx) :
    ((cfg0.win 5).blk t).view.emb y = (y : S1x1x64.Idx) := by
  obtain ⟨e0, e1, e2⟩ := widx5 t
  funext a; apply Fin.ext
  match a with
  | ⟨0, _⟩ => show win0_5.index t (0 : Fin 3) * 1 + 1 * (y 0).val = (y 0).val; omega
  | ⟨1, _⟩ => show win0_5.index t (1 : Fin 3) * 1 + 1 * (y 1).val = (y 1).val; omega
  | ⟨2, _⟩ => show win0_5.index t (2 : Fin 3) * 64 + 1 * (y 2).val = (y 2).val; omega

/-- Where the output block's entries sit in the output array. -/
theorem wemb6 (t : Fin cfg0.N) (y : S16x256x64.Idx) :
    ((cfg0.win 6).blk t).view.emb y = (ix3 (y 0) ⟨256 * (t.val / 8) + (y 1).val, qrow_lt t (y 1)⟩ (y 2) : S16x2048x64.Idx) := by
  obtain ⟨e0, e1, e2⟩ := widx6 t
  funext a; apply Fin.ext
  match a with
  | ⟨0, _⟩ => show win0_6.index t (0 : Fin 3) * 16 + 1 * (y 0).val = (y 0).val; omega
  | ⟨1, _⟩ => show win0_6.index t (1 : Fin 3) * 256 + 1 * (y 1).val = 256 * (t.val / 8) + (y 1).val; omega
  | ⟨2, _⟩ => show win0_6.index t (2 : Fin 3) * 64 + 1 * (y 2).val = (y 2).val; omega

/-! ## The blocks read at an index -/

/-- The query block: rows 256·(t / 8) + r of x. -/
theorem blk0_apply (c : Dev nD) (t : Fin cfg0.N) (b : Fin 16) (r : Fin 256) (d : Fin 64) :
    (iblk m c 0 t : Vec F S16x256x64 .f32) (ix3 b r d)
      = (V m c main_arg0 : Vec F S16x2048x64 .f32) (ix3 b ⟨256 * (t.val / 8) + r.val, qrow_lt t r⟩ d) := by
  show (V m c main_arg0 : Vec F S16x2048x64 .f32) (((cfg0.win 0).blk t).view.emb (ix3 b r d : S16x256x64.Idx)) = _
  rw [wemb0]

/-- The key block: rows 256·(t % 8) + r of x. -/
theorem blk1_apply (c : Dev nD) (t : Fin cfg0.N) (b : Fin 16) (r : Fin 256) (d : Fin 64) :
    (iblk m c 1 t : Vec F S16x256x64 .f32) (ix3 b r d)
      = (V m c main_arg0 : Vec F S16x2048x64 .f32) (ix3 b ⟨256 * (t.val % 8) + r.val, krow_lt t r⟩ d) := by
  show (V m c main_arg0 : Vec F S16x2048x64 .f32) (((cfg0.win 1).blk t).view.emb (ix3 b r d : S16x256x64.Idx)) = _
  rw [wemb1]

/-- The weight block is the weight. -/
theorem blk2_apply (c : Dev nD) (t : Fin cfg0.N) (d e : Fin 64) :
    (iblk m c 2 t : Vec F S64x64 .f32) (ix2 d e) = (V m c main_arg1 : Vec F S64x64 .f32) (ix2 d e) := by
  show (V m c main_arg1 : Vec F S64x64 .f32) (((cfg0.win 2).blk t).view.emb (ix2 d e : S64x64.Idx)) = _
  rw [wemb2]

/-- The attention block: the tile at (t / 8, t % 8). -/
theorem blk3_apply (c : Dev nD) (t : Fin cfg0.N) (r j : Fin 256) :
    (iblk m c 3 t : Vec F S256x256 .f32) (ix2 r j)
      = (V m c main_arg2 : Vec F S2048x2048 .f32) (ix2 ⟨256 * (t.val / 8) + r.val, qrow_lt t r⟩ ⟨256 * (t.val % 8) + j.val, krow_lt t j⟩) := by
  show (V m c main_arg2 : Vec F S2048x2048 .f32) (((cfg0.win 3).blk t).view.emb (ix2 r j : S256x256.Idx)) = _
  rw [wemb3]

/-- The mask block: the same tile of the mask. -/
theorem blk4_apply (c : Dev nD) (t : Fin cfg0.N) (r j : Fin 256) :
    (iblk m c 4 t : Vec F S256x256 .i32) (ix2 r j)
      = (V m c main_arg4 : Vec F S2048x2048 .i32) (ix2 ⟨256 * (t.val / 8) + r.val, qrow_lt t r⟩ ⟨256 * (t.val % 8) + j.val, krow_lt t j⟩) := by
  show (V m c main_arg4 : Vec F S2048x2048 .i32) (((cfg0.win 4).blk t).view.emb (ix2 r j : S256x256.Idx)) = _
  rw [wemb4]

/-- What the region finds in the reshaped bias row: the bias, reshaped. -/
theorem V_bias (c : Dev nD) : (V m c main_v0 : S1x1x64.Idx → Elt F .f32) = shapeCast S1x1x64 (m ((c : Thread nD τ).loc main_arg3)) shapeCasts_S64_S1x1x64 := by
  dsimp only [V, hostOps0]; after_results; rfl

/-- The bias block is the bias row: the host reshaped the bias [64] to [1, 1, 64] before the region. -/
theorem blk5_apply (c : Dev nD) (t : Fin cfg0.N) (e : Fin 64) :
    (iblk m c 5 t : Vec F S1x1x64 .f32) (ix3 (0 : Fin 1) (0 : Fin 1) e) = (m ((c : Thread nD τ).loc main_arg3) : Vec F S64 .f32) (ix1 e) := by
  show (V m c main_v0 : Vec F S1x1x64 .f32) (((cfg0.win 5).blk t).view.emb (ix3 (0 : Fin 1) (0 : Fin 1) e : S1x1x64.Idx)) = _
  rw [wemb5, V_bias]
  refine shapeCast_apply _ _ _ (ix1 e : S64.Idx) ?_
  rw [Shape.rowMajor_val_one, Shape.rowMajor_val_three]
  show e.val = (0 * 1 + 0) * 64 + e.val
  omega

/-- The output block of point t sits at rows 256·(t / 8) + r. -/
theorem emb6 (t : Fin cfg0.N) (b : Fin 16) (r : Fin 256) (e : Fin 64) :
    ((cfg0.win 6).blk t).view.emb (ix3 b r e : S16x256x64.Idx) = (ix3 b ⟨256 * (t.val / 8) + r.val, qrow_lt t r⟩ e : S16x2048x64.Idx) := by
  rw [wemb6]

/-! ## The output blocks cover the output array -/

/-- An entry of the output array is in point t's block iff each coordinate is in the block's range on its axis. -/
theorem wmem6 (t : Fin cfg0.N) (i : S16x2048x64.Idx) :
    i ∈ ((cfg0.win 6).blk t).view.set ↔ ∀ a : Fin 3, win0_6.index t a * S16x256x64.size a ≤ (i a).val ∧ (i a).val < win0_6.index t a * S16x256x64.size a + S16x256x64.size a := by
  show i ∈ ((View.whole main_v1).slice (win0_6.rect t)).set ↔ _
  rw [View.set_slice_whole, Rect.mem_set_unit]
  exact Iff.rfl

/-- Every entry of the output array is in the block some last key tile writes back. -/
theorem cover6 (i : S16x2048x64.Idx) : ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 64 := (i 2).isLt
  have hN : 8 * ((i 1).val / 256) + 7 < cfg0.N := by rw [show cfg0.N = 64 from N_0]; omega
  obtain ⟨t, ht⟩ : ∃ t : Fin cfg0.N, t.val = 8 * ((i 1).val / 256) + 7 := ⟨⟨_, hN⟩, rfl⟩
  refine ⟨t, (flush0_6 t).mpr (by omega), ?_⟩
  rw [wmem6]
  obtain ⟨e0, e1, e2⟩ := widx6 t
  intro a
  match a with
  | ⟨0, _⟩ => show win0_6.index t (0 : Fin 3) * 16 ≤ (i 0).val ∧ (i 0).val < win0_6.index t (0 : Fin 3) * 16 + 16; omega
  | ⟨1, _⟩ => show win0_6.index t (1 : Fin 3) * 256 ≤ (i 1).val ∧ (i 1).val < win0_6.index t (1 : Fin 3) * 256 + 256; omega
  | ⟨2, _⟩ => show win0_6.index t (2 : Fin 3) * 64 ≤ (i 2).val ∧ (i 2).val < win0_6.index t (2 : Fin 3) * 64 + 64; omega

end Cert.KernelIdeal.Frame

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Spec.lean ====
/-
  What both programs compute, as one function of the argument arrays over the extended reals.

  For a batch b, rows n and m of x and an output column e:
    dotp b n m  = Σ_d x[b,n,d] · x[b,m,d]                (the rows' inner product)
    nrm  b n    = sqrt (dotp b n n)                       (a row's Euclidean length)
    cosw b n m  = dotp b n m / (nrm b n · nrm b m)        (the cosine of the two rows)
    am   n m    = att[n,m] · mask[n,m]                    (the masked attention weight; the mask read as a signed integer)
    sup  b m e  = Σ_d x[b,m,d] · W[d,e]                   (row m projected by the weight)
    term b n e m = (am n m · cosw b n m) · sup b m e
    G[b,n,e]    = Σ_m term b n e m + bias[e].
  The kernel adds the 2048 terms of a row in 8 blocks of 256 (one key tile each) into an accumulator that starts at
  zero; on the extended reals addition is commutative and associative, so the regrouping needs no finiteness.
-/
import Idealize.ShloMosaic.PureOps.Ideal
import Idealize.ShloMosaic.Lib.ValueIdx
import proofs.«146296_j82867099009361_1_alg».proof.Proof.LibSums

noncomputable section

open Idealize.ShloMosaic Idealize.ShloMosaic.ValueIdx
open scoped BigOperators

namespace Cert.Spec

abbrev SX : Shape := ⟨3, ![16, 2048, 64]⟩
abbrev SW : Shape := ⟨2, ![64, 64]⟩
abbrev SA : Shape := ⟨2, ![2048, 2048]⟩
abbrev SB : Shape := ⟨1, ![64]⟩

section
variable (x : SX.Idx → EReal) (W : SW.Idx → EReal) (att : SA.Idx → EReal) (bias : SB.Idx → EReal) (mask : SA.Idx → BitVec 32)

/-- The inner product of rows n and m of batch b. -/
def dotp (b : Fin 16) (n m : Fin 2048) : EReal := ∑ d : Fin 64, x (ix3 b n d) * x (ix3 b m d)
/-- The Euclidean length of row n of batch b. -/
def nrm (b : Fin 16) (n : Fin 2048) : EReal := Ideal.sqrt (dotp x b n n)
/-- The cosine of rows n and m of batch b. -/
def cosw (b : Fin 16) (n m : Fin 2048) : EReal := Ideal.div (dotp x b n m) (nrm x b n * nrm x b m)
/-- The masked attention weight. -/
def am (n m : Fin 2048) : EReal := att (ix2 n m) * (((mask (ix2 n m)).toInt : ℝ) : EReal)
/-- Row m of batch b projected by the weight, at column e. -/
def sup (b : Fin 16) (m : Fin 2048) (e : Fin 64) : EReal := ∑ d : Fin 64, x (ix3 b m d) * W (ix2 d e)
/-- Neighbour m's contribution to output row n, column e, of batch b. -/
def term (b : Fin 16) (n : Fin 2048) (e : Fin 64) (m : Fin 2048) : EReal :=
  (am att mask n m * cosw x b n m) * sup x W b m e
/-- The result. -/
def G : SX.Idx → EReal := fun i => (∑ m : Fin 2048, term x W att mask (i 0) (i 1) (i 2) m) + bias (ix1 (i 2))

/-- The contribution of key tile s (neighbours 256·s … 256·s + 255). -/
def tileSum (b : Fin 16) (n : Fin 2048) (e : Fin 64) (s : Fin 8) : EReal :=
  ∑ j : Fin 256, term x W att mask b n e ⟨256 * s.val + j.val, by omega⟩

/-- The row's sum over all neighbours is the sum of the eight key tiles' contributions. -/
theorem sum_term_eq_tiles (b : Fin 16) (n : Fin 2048) (e : Fin 64) :
    ∑ m : Fin 2048, term x W att mask b n e m = ∑ s : Fin 8, tileSum x W att mask b n e s :=
  Cert.Sums.sum_blocks 8 256 (fun m : Fin (8 * 256) => term x W att mask b n e m)

/-- The result as the kernel accumulates it: zero, plus the eight tiles' contributions, plus the bias. -/
theorem G_eq_tiles (b : Fin 16) (n : Fin 2048) (e : Fin 64) :
    G x W att bias mask (ix3 b n e) = (0 + ∑ s ∈ Finset.range 8, (if h : s < 8 then tileSum x W att mask b n e ⟨s, h⟩ else 0)) + bias (ix1 e) := by
  unfold G
  rw [zero_add, show (ix3 b n e : SX.Idx) 0 = b from rfl, show (ix3 b n e : SX.Idx) 1 = n from rfl, show (ix3 b n e : SX.Idx) 2 = e from rfl,
    sum_term_eq_tiles, ← Fin.sum_univ_eq_sum_range (fun s => if h : s < 8 then tileSum x W att mask b n e ⟨s, h⟩ else 0) 8]
  congr 1

end

end Cert.Spec

end
-- ==== Proof.KernelIdeal.Acc.lean ====
/-
  The accumulator over a query tile's eight key tiles, over the extended reals. After the first key tile it holds
  zero plus that tile's contribution; every later key tile adds its own; so after the last it holds zero plus the sum
  of the eight contributions, and the output tile written back there is that plus the bias row. A key tile's
  contribution at (b, r, e) is the specification's sum over the tile's 256 neighbours, so the output array ends at the
  specification's function of the argument arrays.
-/
import proofs.«146296_j82867099009361_1_alg».proof.Proof.KernelIdeal.Pieces
import proofs.«146296_j82867099009361_1_alg».proof.Proof.KernelIdeal.PiecesA
import proofs.«146296_j82867099009361_1_alg».proof.Proof.KernelIdeal.Blocks
import proofs.«146296_j82867099009361_1_alg».proof.Proof.KernelIdeal.Tile
import proofs.«146296_j82867099009361_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Frame

open Cert.KernelIdeal Cert.KernelIdeal.Gen Cert.KernelIdeal.Tile
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The blocks and the arrays, at their literal types -/

abbrev qblk (c : Dev nD) (t : Fin cfg0.N) : Vec Ideal S16x256x64 .f32 := iblk m c 0 t
abbrev kblk (c : Dev nD) (t : Fin cfg0.N) : Vec Ideal S16x256x64 .f32 := iblk m c 1 t
abbrev wblk (c : Dev nD) (t : Fin cfg0.N) : Vec Ideal S64x64 .f32 := iblk m c 2 t
abbrev ablk (c : Dev nD) (t : Fin cfg0.N) : Vec Ideal S256x256 .f32 := iblk m c 3 t
abbrev mblk (c : Dev nD) (t : Fin cfg0.N) : Vec Ideal S256x256 .i32 := iblk m c 4 t
abbrev bblk (c : Dev nD) (t : Fin cfg0.N) : Vec Ideal S1x1x64 .f32 := iblk m c 5 t

abbrev xarr (c : Dev nD) : Spec.SX.Idx → EReal := V m c main_arg0
abbrev warr (c : Dev nD) : Spec.SW.Idx → EReal := V m c main_arg1
abbrev aarr (c : Dev nD) : Spec.SA.Idx → EReal := V m c main_arg2
abbrev barr (c : Dev nD) : Spec.SB.Idx → EReal := m ((c : Thread nD τ).loc main_arg3)
abbrev marr (c : Dev nD) : Spec.SA.Idx → BitVec 32 := V m c main_arg4

theorem qblk_apply (c : Dev nD) (t : Fin cfg0.N) (b : Fin 16) (r : Fin 256) (d : Fin 64) :
    qblk m c t (ix3 b r d) = xarr m c (ix3 b ⟨256 * (t.val / 8) + r.val, qrow_lt t r⟩ d) := blk0_apply m c t b r d
theorem kblk_apply (c : Dev nD) (t : Fin cfg0.N) (b : Fin 16) (r : Fin 256) (d : Fin 64) :
    kblk m c t (ix3 b r d) = xarr m c (ix3 b ⟨256 * (t.val % 8) + r.val, krow_lt t r⟩ d) := blk1_apply m c t b r d
theorem wblk_apply (c : Dev nD) (t : Fin cfg0.N) (d e : Fin 64) :
    wblk m c t (ix2 d e) = warr m c (ix2 d e) := blk2_apply m c t d e
theorem ablk_apply (c : Dev nD) (t : Fin cfg0.N) (r j : Fin 256) :
    ablk m c t (ix2 r j) = aarr m c (ix2 ⟨256 * (t.val / 8) + r.val, qrow_lt t r⟩ ⟨256 * (t.val % 8) + j.val, krow_lt t j⟩) := blk3_apply m c t r j
theorem mblk_apply (c : Dev nD) (t : Fin cfg0.N) (r j : Fin 256) :
    mblk m c t (ix2 r j) = marr m c (ix2 ⟨256 * (t.val / 8) + r.val, qrow_lt t r⟩ ⟨256 * (t.val % 8) + j.val, krow_lt t j⟩) := blk4_apply m c t r j
theorem bblk_apply (c : Dev nD) (t : Fin cfg0.N) (e : Fin 64) :
    bblk m c t (ix3 (0 : Fin 1) (0 : Fin 1) e) = barr m c (ix1 e) := blk5_apply m c t e

/-! ## One point's step, entry by entry -/

/-- The step adds the batch's contribution to the old entry. -/
theorem accAll_apply (x0 x1 : Vec Ideal S16x256x64 .f32) (x2 : Vec Ideal S64x64 .f32) (x3 : Vec Ideal S256x256 .f32)
    (x4 : Vec Ideal S256x256 .i32) (old : Vec Ideal S16x256x64 .f32) (b : Fin 16) (r : Fin 256) (e : Fin 64) :
    accAll x0 x1 x2 x3 x4 old (ix3 b r e)
      = old (ix3 b r e) + partTile (F := Ideal) (amTile x3 x4) (wTile x2) (slab x0 b) (slab x1 b) (ix2 r e) :=
  accStep_apply (partTile (F := Ideal) (amTile x3 x4) (wTile x2) (slab x0 b) (slab x1 b)) (slab old b) r e

/-- The zero fill is zero. -/
theorem pay3_apply (y : S16x256x64.Idx) : (k0_pay3 (F := Ideal)) y = 0 := by
  unfold k0_pay3
  rw [shapeCast_self]
  exact Ideal.ofBits_zero_f32

/-- The last store's value: the accumulator's entry plus the bias row's. -/
theorem pay2_apply (acc : Vec Ideal S16x256x64 .f32) (x5 : Vec Ideal S1x1x64 .f32) (b : Fin 16) (r : Fin 256) (e : Fin 64) :
    (k0_pay2 (F := Ideal) acc x5) (ix3 b r e) = acc (ix3 b r e) + x5 (ix3 (0 : Fin 1) (0 : Fin 1) e) := by
  unfold k0_pay2
  rw [shapeCast_self]
  show acc (ix3 b r e) + broadcastTo S16x256x64 x5 broadcasts_S1x1x64_S16x256x64 (ix3 b r e) = _
  congr 1
  refine broadcastTo_apply x5 _ (ix3 b r e) (ix3 (0 : Fin 1) (0 : Fin 1) e) fun a => ?_
  match a with
  | ⟨0, _⟩ => rfl
  | ⟨1, _⟩ => rfl
  | ⟨2, _⟩ => exact (if_neg (show ¬S1x1x64.size (2 : Fin 3) = 1 by decide)).symm

/-! ## The accumulator after each point -/

/-- What the accumulator holds after the body at position `n`. -/
def scAt (c : Dev nD) (n : ℕ) (h : n < cfg0.N) : Vec Ideal S16x256x64 .f32 := (outsAt0 m c n h).2

/-- At a first key tile: the step of the zero fill. -/
theorem scAt_reset (c : Dev nD) (n : ℕ) (h : n < cfg0.N) (h0 : n % 8 = 0) :
    scAt m c n h = accAll (qblk m c ⟨n, h⟩) (kblk m c ⟨n, h⟩) (wblk m c ⟨n, h⟩) (ablk m c ⟨n, h⟩) (mblk m c ⟨n, h⟩) (k0_pay3 (F := Ideal)) := by
  have h1 : ¬n % 8 = 7 := by omega
  unfold scAt
  rw [outsAt0_A m c ⟨n, h⟩ h0 h1]
  dsimp only
  exact sout0_A_0_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) _ _ (iblk m c 0 ⟨n, h⟩) (iblk m c 1 ⟨n, h⟩) (iblk m c 2 ⟨n, h⟩) (iblk m c 3 ⟨n, h⟩) (iblk m c 4 ⟨n, h⟩) (iblk m c 5 ⟨n, h⟩)

/-- At every other key tile: the step of what the point before left. -/
theorem scAt_step (c : Dev nD) (n : ℕ) (h : n + 1 < cfg0.N) (hne : ¬(n + 1) % 8 = 0) :
    scAt m c (n + 1) h = accAll (qblk m c ⟨n + 1, h⟩) (kblk m c ⟨n + 1, h⟩) (wblk m c ⟨n + 1, h⟩) (ablk m c ⟨n + 1, h⟩) (mblk m c ⟨n + 1, h⟩) (scAt m c n (Nat.lt_of_succ_lt h)) := by
  unfold scAt
  by_cases h1 : (n + 1) % 8 = 7
  · rw [outsAt0_C m c ⟨n + 1, h⟩ hne h1]
    dsimp only
    exact sout0_C_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2
  · rw [outsAt0_B m c ⟨n + 1, h⟩ hne h1]
    dsimp only
    exact sout0_B_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).2

/-! ## The fold over a query tile's key tiles -/

/-- Point `n`'s contribution to the accumulator's entry (b, r, e). -/
def contrib (c : Dev nD) (n : ℕ) (y : S16x256x64.Idx) : EReal :=
  if h : n < cfg0.N then
    partTile (F := Ideal) (amTile (ablk m c ⟨n, h⟩) (mblk m c ⟨n, h⟩)) (wTile (wblk m c ⟨n, h⟩))
      (slab (qblk m c ⟨n, h⟩) (y 0)) (slab (kblk m c ⟨n, h⟩) (y 0)) (ix2 (y 1) (y 2))
  else 0

/-- The accumulator after point `t` is the fold from the last reset. -/
theorem scAt_fold (c : Dev nD) (t : ℕ) (ht : t < cfg0.N) (h' : 8 * (t / 8) + t % 8 < cfg0.N) :
    scAt m c t ht = Pipeline.accAt (N := cfg0.N) (fun n h => accAll (qblk m c ⟨n, h⟩) (kblk m c ⟨n, h⟩) (wblk m c ⟨n, h⟩) (ablk m c ⟨n, h⟩) (mblk m c ⟨n, h⟩) (k0_pay3 (F := Ideal)))
      (fun n h acc => accAll (qblk m c ⟨n, h⟩) (kblk m c ⟨n, h⟩) (wblk m c ⟨n, h⟩) (ablk m c ⟨n, h⟩) (mblk m c ⟨n, h⟩) acc) (8 * (t / 8)) (t % 8) h' :=
  Pipeline.eq_accAt_of_mod (scAt m c) 8 _ _ (fun n h h0 => scAt_reset m c n h h0) (fun n h hne => scAt_step m c n h hne)
    (by norm_num) t ht h'

/-- Entry by entry: zero plus the contributions of the key tiles so far. -/
theorem scAt_sum (c : Dev nD) (t : ℕ) (ht : t < cfg0.N) (y : S16x256x64.Idx) :
    scAt m c t ht y = 0 + ∑ s ∈ Finset.range (t % 8 + 1), contrib m c (8 * (t / 8) + s) y := by
  have h' : 8 * (t / 8) + t % 8 < cfg0.N := by rw [Nat.div_add_mod]; exact ht
  rw [scAt_fold m c t ht h']
  refine Pipeline.accAt_add_apply (N := cfg0.N) _ _ (fun _ => (0 : EReal)) (contrib m c) (8 * (t / 8)) 7 ?_ ?_ (t % 8) (by omega) h' y
  · intro h i
    obtain ⟨b, r, e, rfl⟩ : ∃ (b : Fin 16) (r : Fin 256) (e : Fin 64), i = ix3 b r e := ⟨i 0, i 1, i 2, eq_ix3 i⟩
    refine (accAll_apply _ _ _ _ _ _ b r e).trans ?_
    rw [pay3_apply]
    unfold contrib
    rw [dif_pos h]
  · intro n h acc i _ _
    obtain ⟨b, r, e, rfl⟩ : ∃ (b : Fin 16) (r : Fin 256) (e : Fin 64), i = ix3 b r e := ⟨i 0, i 1, i 2, eq_ix3 i⟩
    refine (accAll_apply _ _ _ _ _ _ b r e).trans ?_
    unfold contrib
    rw [dif_pos h]

/-! ## A point's contribution is the specification's key-tile sum -/

theorem tileSum_congr (x : Spec.SX.Idx → EReal) (W : Spec.SW.Idx → EReal) (att : Spec.SA.Idx → EReal) (mask : Spec.SA.Idx → BitVec 32)
    (b : Fin 16) (e : Fin 64) (n n' : Fin 2048) (s s' : Fin 8) (hn : n.val = n'.val) (hs : s.val = s'.val) :
    Spec.tileSum x W att mask b n e s = Spec.tileSum x W att mask b n' e s' := by
  obtain rfl := Fin.ext hn; obtain rfl := Fin.ext hs; rfl

/-- Point `t` (query tile t / 8, key tile t % 8) contributes, to row r of batch b and column e, the sum over the key
    tile's 256 neighbours of the specification's terms. -/
theorem contrib_eq (c : Dev nD) (t : Fin cfg0.N) (b : Fin 16) (r : Fin 256) (e : Fin 64) :
    contrib m c t.val (ix3 b r e)
      = Spec.tileSum (xarr m c) (warr m c) (aarr m c) (marr m c) b ⟨256 * (t.val / 8) + r.val, qrow_lt t r⟩ e ⟨t.val % 8, Nat.mod_lt _ (by norm_num)⟩ := by
  unfold contrib
  rw [dif_pos t.isLt]
  show partTile (F := Ideal) (amTile (ablk m c t) (mblk m c t)) (wTile (wblk m c t)) (slab (qblk m c t) b) (slab (kblk m c t) b) (ix2 r e) = _
  refine (partTile_apply (ablk m c t) (mblk m c t) (wblk m c t) (slab (qblk m c t) b) (slab (kblk m c t) b) r e).trans ?_
  unfold Spec.tileSum Spec.term Spec.am Spec.cosw Spec.nrm Spec.dotp Spec.sup
  refine Finset.sum_congr rfl fun j _ => ?_
  show (ablk m c t (ix2 r j) * ((((mblk m c t (ix2 r j)).toInt : ℝ)) : EReal))
      * Ideal.div (∑ d : Fin 64, qblk m c t (ix3 b r d) * kblk m c t (ix3 b j d))
          (Ideal.sqrt (∑ d : Fin 64, qblk m c t (ix3 b r d) * qblk m c t (ix3 b r d))
            * Ideal.sqrt (∑ d : Fin 64, kblk m c t (ix3 b j d) * kblk m c t (ix3 b j d)))
      * (∑ d : Fin 64, kblk m c t (ix3 b j d) * wblk m c t (ix2 d e)) = _
  rw [ablk_apply, mblk_apply]
  simp only [qblk_apply, kblk_apply, wblk_apply]

/-- After the last key tile of a query tile the accumulator's entry is zero plus the eight key tiles' sums. -/
theorem scAt_last (c : Dev nD) (t : Fin cfg0.N) (h7 : t.val % 8 = 7) (b : Fin 16) (r : Fin 256) (e : Fin 64) :
    scAt m c t.val t.isLt (ix3 b r e)
      = 0 + ∑ s ∈ Finset.range 8, (if h : s < 8 then Spec.tileSum (xarr m c) (warr m c) (aarr m c) (marr m c) b ⟨256 * (t.val / 8) + r.val, qrow_lt t r⟩ e ⟨s, h⟩ else 0) := by
  rw [scAt_sum m c t.val t.isLt, h7]
  congr 1
  refine Finset.sum_congr rfl fun s hs => ?_
  have hs8 : s < 8 := Finset.mem_range.mp hs
  have hN : t.val < 64 := lt_of_lt_of_eq t.isLt N_0
  have hlt : 8 * (t.val / 8) + s < cfg0.N := lt_of_lt_of_eq (by omega : 8 * (t.val / 8) + s < 64) N_0.symm
  rw [dif_pos hs8]
  refine (contrib_eq m c ⟨8 * (t.val / 8) + s, hlt⟩ b r e).trans ?_
  refine tileSum_congr _ _ _ _ b e _ _ _ _ ?_ ?_
  · show 256 * ((8 * (t.val / 8) + s) / 8) + r.val = 256 * (t.val / 8) + r.val
    omega
  · show (8 * (t.val / 8) + s) % 8 = s
    omega

/-! ## What a last key tile writes back, and the output array -/

/-- The block a last key tile writes back is the specification's block there. -/
theorem flushed6_eq (c : Dev nD) (t : Fin cfg0.N) (hf : (cfg0.win 6).flush t = true) :
    (dats m 0 c).flushed 6 t = ((cfg0.win 6).blk t).view.read (Elt Ideal)
      (Spec.G (xarr m c) (warr m c) (aarr m c) (barr m c) (marr m c)) := by
  have h7 : t.val % 8 = 7 := (flush0_6 t).mp hf
  have h0 : ¬t.val % 8 = 0 := by omega
  have hsc : scAt m c t.val t.isLt = accAll (qblk m c t) (kblk m c t) (wblk m c t) (ablk m c t) (mblk m c t) (outsAt0 m c (t.val - 1) (Nat.lt_of_le_of_lt (Nat.sub_le _ _) t.isLt)).2 := by
    unfold scAt
    rw [outsAt0_C m c t h0 h7]
    dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) _
  show (cfg0.win 6).cut (grid0.coords t) ((dats m 0 c).after 6 t) = _
  rw [after0_6, outsAt0_C m c t h0 h7]
  dsimp only
  rw [out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) _]
  funext j
  obtain ⟨b, r, e, rfl⟩ : ∃ (b : Fin 16) (r : Fin 256) (e : Fin 64), j = ix3 b r e := ⟨j 0, j 1, j 2, eq_ix3 j⟩
  show (k0_pay2 (F := Ideal) (accAll (qblk m c t) (kblk m c t) (wblk m c t) (ablk m c t) (mblk m c t) (outsAt0 m c (t.val - 1) (Nat.lt_of_le_of_lt (Nat.sub_le _ _) t.isLt)).2) (bblk m c t)) (ix3 b r e)
    = Spec.G (xarr m c) (warr m c) (aarr m c) (barr m c) (marr m c) (((cfg0.win 6).blk t).view.emb (ix3 b r e))
  rw [← hsc, pay2_apply, bblk_apply, emb6, Spec.G_eq_tiles, scAt_last m c t h7]

/-- The output array after the run is the specification's function of the argument arrays. -/
theorem final6 (c : Dev nD) :
    (dats m 0 c).arrAt 6 cfg0.N = Spec.G (xarr m c) (warr m c) (aarr m c) (barr m c) (marr m c) :=
  (dats m 0 c).arrAt_eq_of_cover 6 _ (fun t hf => flushed6_eq m c t hf) cover6

/-! ## The run, read -/

/-- Every weakly fair execution of @main terminates with the result array at the specification's function of the
    argument arrays as launched, and the arguments unchanged. -/
theorem run_value : θ_run defs (onTc (τ := τ) (main (F := Ideal))) ⟨m, fun _ => 0, ρ⟩ (fun r => ∀ c : Dev nD,
      r.2.mem ((c.tc : Thread nD τ).loc main_v1)
        = Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 6).trans ((final6 m c).trans (by
        show Spec.G (V m c main_arg0) (V m c main_arg1) (V m c main_arg2) (m ((c : Thread nD τ).loc main_arg3)) (V m c main_arg4) = _
        rw [V_main_arg0, V_main_arg1, V_main_arg2, V_main_arg4])),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c)))⟩) (run_main m ρ)

end Cert.KernelIdeal.Frame

end
-- ==== Proof.RefIsG.lean ====
/-
  The reference's result, read index by index, is the specification's function of the argument arrays: its three
  matrix products are plain sums over the contracted axis, its row norm is the square root of the row's sum of
  squares, and its broadcasts and its transpose only re-index.
-/
import proofs.«146296_j82867099009361_1_alg».proof.Proof.Gen.ReferenceIdeal.Read
import proofs.«146296_j82867099009361_1_alg».proof.Proof.Spec

noncomputable section

namespace Cert.RefValue

open Cert.ReferenceIdeal Cert.ReferenceIdeal.Read Idealize.ShloMosaic Idealize.ShloMosaic.ValueIdx
open scoped BigOperators

section
variable (x0 : (⟨S16x2048x64, .f32⟩ : BufTy).Contents (Elt Ideal)) (x1 : (⟨S64x64, .f32⟩ : BufTy).Contents (Elt Ideal))
  (x2 : (⟨S2048x2048, .f32⟩ : BufTy).Contents (Elt Ideal)) (x3 : (⟨S64, .f32⟩ : BufTy).Contents (Elt Ideal))
  (x4 : (⟨S2048x2048, .i32⟩ : BufTy).Contents (Elt Ideal))

/-- The first matrix product: row m of batch b times the weight, at column e. -/
theorem support_apply (b : Fin 16) (m : Fin 2048) (e : Fin 64) :
    val_main_v0 (F := Ideal) x0 x1 (ix3 b m e) = Cert.Spec.sup x0 x1 b m e := by
  rw [val_main_v0_apply]
  unfold Cert.Spec.sup
  refine Finset.sum_congr rfl fun d _ => ?_
  have e1 : lidx_main_v0 (ix3 b m e) d = ix3 b m d :=
    funext fun a => Fin.ext (by match a with | ⟨0, _⟩ => rfl | ⟨1, _⟩ => rfl | ⟨2, _⟩ => rfl)
  have e2 : ridx_main_v0 (ix3 b m e) d = ix2 d e :=
    funext fun a => Fin.ext (by match a with | ⟨0, _⟩ => rfl | ⟨1, _⟩ => rfl)
  rw [e1, e2]

/-- The second matrix product: the inner product of rows n and m of batch b. -/
theorem gram_apply (b : Fin 16) (n m : Fin 2048) :
    val_main_v1 (F := Ideal) x0 (ix3 b n m) = Cert.Spec.dotp x0 b n m := by
  rw [val_main_v1_apply]
  unfold Cert.Spec.dotp
  refine Finset.sum_congr rfl fun d _ => ?_
  have e1 : lidx_main_v1 (ix3 b n m) d = ix3 b n d :=
    funext fun a => Fin.ext (by match a with | ⟨0, _⟩ => rfl | ⟨1, _⟩ => rfl | ⟨2, _⟩ => rfl)
  have e2 : ridx_main_v1 (ix3 b n m) d = ix3 b m d :=
    funext fun a => Fin.ext (by match a with | ⟨0, _⟩ => rfl | ⟨1, _⟩ => rfl | ⟨2, _⟩ => rfl)
  rw [e1, e2]

/-- A row's sum of squares: zero plus the sum of the squared entries is the row's inner product with itself. -/
theorem sumsq_apply (b : Fin 16) (n : Fin 2048) :
    val_main_call0_v1 (F := Ideal) x0 (ix2 b n) = Cert.Spec.dotp x0 b n n := by
  rw [val_main_call0_v1_apply, val_main_call0_cst_apply, Ideal.ofBits_def, Ideal.ofBits_zero_f32, zero_add]
  unfold Cert.Spec.dotp
  refine Finset.sum_congr rfl fun d _ => ?_
  have e1 : idx_main_call0_v1 (ix2 b n) d = ix3 b n d :=
    funext fun a => Fin.ext (by match a with | ⟨0, _⟩ => rfl | ⟨1, _⟩ => rfl | ⟨2, _⟩ => rfl)
  rw [val_main_call0_v0_apply, Ideal.mulf_def, e1]

/-- A row's Euclidean length, kept with a last axis of size one. -/
theorem norm_apply (b : Fin 16) (n : Fin 2048) (z : Fin 1) :
    val_main_v2 (F := Ideal) x0 (ix3 b n z) = Cert.Spec.nrm x0 b n := by
  have e1 : idx_main_call0_v2 (ix3 b n z) = ix2 b n :=
    funext fun a => Fin.ext (by match a with | ⟨0, _⟩ => rfl | ⟨1, _⟩ => rfl)
  rw [val_main_v2_apply, Ideal.hostUnary_sqrt_def, val_main_call0_v2_apply, e1, sumsq_apply]
  rfl

/-- The product of the lengths of rows n and m: one broadcast along the columns, the other transposed and broadcast
along the rows. -/
theorem normprod_apply (b : Fin 16) (n m : Fin 2048) :
    val_main_v6 (F := Ideal) x0 (ix3 b n m) = Cert.Spec.nrm x0 b n * Cert.Spec.nrm x0 b m := by
  have e1 : idx_main_v4 (ix3 b n m) = ix3 b n (0 : Fin 1) :=
    funext fun a => Fin.ext (by match a with | ⟨0, _⟩ => rfl | ⟨1, _⟩ => rfl | ⟨2, _⟩ => rfl)
  have e2 : idx_main_v3 (idx_main_v5 (ix3 b n m)) = ix3 b m (0 : Fin 1) :=
    funext fun a => Fin.ext (by match a with | ⟨0, _⟩ => rfl | ⟨1, _⟩ => rfl | ⟨2, _⟩ => rfl)
  rw [val_main_v6_apply, Ideal.mulf_def, val_main_v4_apply, val_main_v5_apply, val_main_v3_apply, e1, e2,
    norm_apply, norm_apply]

/-- The cosine of rows n and m. -/
theorem cos_apply (b : Fin 16) (n m : Fin 2048) :
    val_main_v7 (F := Ideal) x0 (ix3 b n m) = Cert.Spec.cosw x0 b n m := by
  rw [val_main_v7_apply, Ideal.hostDivf_def, gram_apply, normprod_apply]
  rfl

/-- The masked attention weight: the mask's word converts to the integer it spells, read signed. -/
theorem am_apply (n m : Fin 2048) :
    val_main_v9 (F := Ideal) x2 x4 (ix2 n m) = Cert.Spec.am x2 x4 n m := by
  rw [val_main_v9_apply, Ideal.mulf_def, val_main_v8_apply]
  rfl

/-- The masked attention weight does not depend on the batch. -/
theorem am_bcast_apply (b : Fin 16) (n m : Fin 2048) :
    val_main_v11 (F := Ideal) x2 x4 (ix3 b n m) = Cert.Spec.am x2 x4 n m := by
  have e1 : idx_main_v10 (idx_main_v11 (ix3 b n m)) = ix2 n m :=
    funext fun a => Fin.ext (by match a with | ⟨0, _⟩ => rfl | ⟨1, _⟩ => rfl)
  rw [val_main_v11_apply, val_main_v10_apply, e1, am_apply]

/-- The adjacency: the masked attention weight times the cosine. -/
theorem adj_apply (b : Fin 16) (n m : Fin 2048) :
    val_main_v12 (F := Ideal) x0 x2 x4 (ix3 b n m) = Cert.Spec.am x2 x4 n m * Cert.Spec.cosw x0 b n m := by
  rw [val_main_v12_apply, Ideal.mulf_def, am_bcast_apply, cos_apply]

/-- The third matrix product: the sum over the neighbours m of the adjacency times the projected row m. -/
theorem out_apply (b : Fin 16) (n : Fin 2048) (e : Fin 64) :
    val_main_v13 (F := Ideal) x0 x1 x2 x4 (ix3 b n e) = ∑ m : Fin 2048, Cert.Spec.term x0 x1 x2 x4 b n e m := by
  rw [val_main_v13_apply]
  refine Finset.sum_congr rfl fun m _ => ?_
  have e1 : lidx_main_v13 (ix3 b n e) m = ix3 b n m :=
    funext fun a => Fin.ext (by match a with | ⟨0, _⟩ => rfl | ⟨1, _⟩ => rfl | ⟨2, _⟩ => rfl)
  have e2 : ridx_main_v13 (ix3 b n e) m = ix3 b m e :=
    funext fun a => Fin.ext (by match a with | ⟨0, _⟩ => rfl | ⟨1, _⟩ => rfl | ⟨2, _⟩ => rfl)
  rw [e1, e2, adj_apply, support_apply]
  rfl

/-- The bias, broadcast over the batches and the rows. -/
theorem bias_apply (b : Fin 16) (n : Fin 2048) (e : Fin 64) :
    val_main_v15 (F := Ideal) x3 (ix3 b n e) = x3 (ix1 e) := by
  have e1 : idx_main_v14 (idx_main_v15 (ix3 b n e)) = ix1 e :=
    funext fun a => Fin.ext (by match a with | ⟨0, _⟩ => rfl)
  rw [val_main_v15_apply, val_main_v14_apply, e1]

end

/-- The reference's last stage is the specification's function. -/
theorem ref_eq_G (x0 : (⟨S16x2048x64, .f32⟩ : BufTy).Contents (Elt Ideal)) (x1 : (⟨S64x64, .f32⟩ : BufTy).Contents (Elt Ideal))
    (x2 : (⟨S2048x2048, .f32⟩ : BufTy).Contents (Elt Ideal)) (x3 : (⟨S64, .f32⟩ : BufTy).Contents (Elt Ideal))
    (x4 : (⟨S2048x2048, .i32⟩ : BufTy).Contents (Elt Ideal)) :
    val_main_v16 (F := Ideal) x0 x1 x2 x3 x4 = Cert.Spec.G x0 x1 x2 x3 x4 := by
  funext i
  obtain ⟨b, n, e, rfl⟩ : ∃ (b : Fin 16) (n : Fin 2048) (e : Fin 64), i = ix3 b n e := ⟨i 0, i 1, i 2, eq_ix3 i⟩
  rw [val_main_v16_apply, Ideal.addf_def, out_apply, bias_apply]
  rfl

end Cert.RefValue

end
-- ==== Proof.lean ====
/-
  The certificate of a graph-convolution kernel against its jnp reference, over the extended reals.

  Both programs compute, for a batch b, an output row n and a column e,
      out[b, n, e] = Σ_m (att[n, m] · mask[n, m]) · cos(x[b, n, :], x[b, m, :]) · (x[b, m, :] · W[:, e]) + bias[e],
  where cos(u, v) = (u · v) / (|u| · |v|) (Proof/Spec.lean). The reference does it with three whole matrix products
  (Proof/RefIsG.lean reads its generated run index by index). The kernel walks an 8 × 8 grid of (query tile, key
  tile) pairs; at each point, for each of the sixteen batches, it forms the tile's 256 × 256 weights and adds their
  product with the projected key rows into a scratch accumulator, which it resets at a query tile's first key tile
  and stores, plus the bias, at its last (Proof/KernelIdeal/: the body's run by cases, the frame, the pieces, the
  fold over the key tiles). The two agree because a row's sum over 2048 neighbours is the sum of its eight blocks
  of 256 - addition on the extended reals is commutative and associative, so no finiteness is needed - and because
  every other operation is the same exact function on both sides.

  The query tile and the key tile are two windows over the one array x; the launch deals x among them as two read
  shares (Proof/LibSharedFrame.lean). The word-level program's frame (Proof/Kernel/) is the idealized program's frame
  with the namespace changed: the frame modules are generic in the float instance.
-/
import proofs.«146296_j82867099009361_1_alg».proof.Defs
import proofs.«146296_j82867099009361_1_alg».proof.Proof.Gen.Kernel
import proofs.«146296_j82867099009361_1_alg».proof.Proof.Gen.KernelIdeal
import proofs.«146296_j82867099009361_1_alg».proof.Proof.Gen.ReferenceIdeal
import proofs.«146296_j82867099009361_1_alg».proof.Proof.Gen.Pre_finite_inputs
import proofs.«146296_j82867099009361_1_alg».proof.Proof.Gen.ReferenceIdeal.Run
import proofs.«146296_j82867099009361_1_alg».proof.Proof.Gen.ReferenceIdeal.Read
import proofs.«146296_j82867099009361_1_alg».proof.Proof.Kernel.Frame
import proofs.«146296_j82867099009361_1_alg».proof.Proof.KernelIdeal.Acc
import proofs.«146296_j82867099009361_1_alg».proof.Proof.RefIsG
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Frame.frame m ρ

/-- So does the idealized program. -/
theorem frame_ki : Cert.frame_KernelIdeal := fun m ρ _ => Cert.KernelIdeal.Frame.frame m ρ

/-- The reference is host operations only: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's function of the argument arrays. -/
theorem algebraic : Cert.algebraic_KernelIdeal_ReferenceIdeal := by
  intro m ρ m' ρ' _ hagree
  refine ⟨_, Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefValue.ref_eq_G, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
